-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S64x32 .f32) (main_arg9 : FVec F S32 .f32) (main_arg10 : FVec F S32x1 .f32) (main_arg11 : FVec F S1 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg10
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64x64 .f32) (main_arg6 : FVec F S64 .f32) (main_arg7 : FVec F S64x64 .f32) (main_arg8 : FVec F S64x32 .f32) (main_arg9 : FVec F S32 .f32) (main_arg10 : FVec F S32x1 .f32) (main_arg11 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x32 .f32) (main_arg1 : IVec S2x1600000 32) (main_arg2 : FVec F S32x64 .f32) (main_arg3 : FVec F S64 .f32) (main_arg4 : FVec F S32x64 .f32) (main_arg5 : FVec F S64x64 .f32) (main_arg6 : FVec F S64 .f32) (main_arg7 : FVec F S64x64 .f32) (main_arg8 : FVec F S64x32 .f32) (main_arg9 : FVec F S32 .f32) (main_arg10 : FVec F S32x1 .f32) (main_arg11 : FVec F S1 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_v13 main_v16
-- ==== Kernel.lean ====
abbrev S50000x32 : Shape := ⟨2, ![50000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1600000x32 : Shape := ⟨2, ![1600000, 32]⟩
abbrev S1x64 : Shape := ⟨2, ![1, 64]⟩
abbrev S50000x64 : Shape := ⟨2, ![50000, 64]⟩
abbrev S2000x32 : Shape := ⟨2, ![2000, 32]⟩
abbrev S2000x64 : Shape := ⟨2, ![2000, 64]⟩
abbrev S2000 : Shape := ⟨1, ![2000]⟩
abbrev S2000x1 : Shape := ⟨2, ![2000, 1]⟩
abbrev S1600000x64 : Shape := ⟨2, ![1600000, 64]⟩
abbrev S1x32 : Shape := ⟨2, ![1, 32]⟩
abbrev S1x1 : Shape := ⟨2, ![1, 1]⟩
abbrev S50000 : Shape := ⟨1, ![50000]⟩

abbrev nBuf : Space → Nat
  | .hbm => 62
  | .vmem => 22
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000x1, .f32⟩
  | .hbm, ⟨18, _⟩ => ⟨S_, .f32⟩
  | .hbm, ⟨19, _⟩ => ⟨S50000x1, .f32⟩
  | .hbm, ⟨20, _⟩ => ⟨S1600000x1, .i32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x32, .f32⟩
  | .hbm, ⟨34, _⟩ => ⟨S_, .f32⟩
  | .hbm, ⟨35, _⟩ => ⟨S50000x32, .f32⟩
  | .hbm, ⟨36, _⟩ => ⟨S1600000x1, .i32⟩
  | .hbm, ⟨37, _⟩ => ⟨S50000x32, .f32⟩
  | .hbm, ⟨38, _⟩ => ⟨S50000x32, .f32⟩
  | .hbm, ⟨39, _⟩ => ⟨S50000x32, .f32⟩
  | .hbm, ⟨40, _⟩ => ⟨S1x64, .f32⟩
  | .hbm, ⟨41, _⟩ => ⟨S50000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S50000x64, .f32⟩
  | .hbm, ⟨53, _⟩ => ⟨S1600000x1, .i32⟩
  | .hbm, ⟨54, _⟩ => ⟨S50000x64, .f32⟩
  | .hbm, ⟨55, _⟩ => ⟨S50000x64, .f32⟩
  | .hbm, ⟨56, _⟩ => ⟨S50000x64, .f32⟩
  | .hbm, ⟨57, _⟩ => ⟨S1x64, .f32⟩
  | .hbm, ⟨58, _⟩ => ⟨S1x32, .f32⟩
  | .hbm, ⟨59, _⟩ => ⟨S1x1, .f32⟩
  | .hbm, ⟨60, _⟩ => ⟨S50000x1, .f32⟩
  | .hbm, ⟨61, _⟩ => ⟨S50000, .f32⟩
  | .local _ .vmem, ⟨0, _⟩ => ⟨S2000x32, .f32⟩
  | .local _ .vmem, ⟨1, _⟩ => ⟨S2000x32, .f32⟩
  | .local _ .vmem, ⟨2, _⟩ => ⟨S2000x32, .f32⟩
  | .local _ .vmem, ⟨3, _⟩ => ⟨S2000x32, .f32⟩
  | .local _ .vmem, ⟨4, _⟩ => ⟨S32x64, .f32⟩
  | .local _ .vmem, ⟨5, _⟩ => ⟨S32x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S64x32, .f32⟩
  | .local _ .vmem, ⟨17, _⟩ => ⟨S1x32, .f32⟩
  | .local _ .vmem, ⟨18, _⟩ => ⟨S32x1, .f32⟩
  | .local _ .vmem, ⟨19, _⟩ => ⟨S1x1, .f32⟩
  | .local _ .vmem, ⟨20, _⟩ => ⟨S2000x1, .f32⟩
  | .local _ .vmem, ⟨21, _⟩ => ⟨S2000x1, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S50000x1 : S_.BroadcastsInDim S50000x1 (![] : Fin 0 → Fin S50000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  shapeCasts_S64_S1x64 : S64.ShapeCasts S1x64
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S32_S1x32 : S32.ShapeCasts S1x32
  shapeCasts_S1_S1x1 : S1.ShapeCasts S1x1
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  scatter_S50000x1_S1600000x1_S1600000x1_1_0_0_1_wf : ScatterDims.WF S50000x1 S1600000x1 S1600000x1 [1] [0] [0] 1
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S2000x32_S32x64_S2000x64_1_0_0_1_n_n_wf : DotDims.WF S2000x32 S32x64 S2000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  dot_S2000x32_S32x1_S2000x1_1_0_0_1_n_n_wf : DotDims.WF S2000x32 S32x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S50000x32.size a
  hwx0_0 : ∀ i : grid0.Coords, EltTy.bits .f32 = 32 ∨ (Rect.block (s := S50000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S50000x32.size a
  hwx0_1 : ∀ i : grid0.Coords, EltTy.bits .f32 = 32 ∨ (Rect.block (s := S50000x32) S2000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S32x1.size a
  hwx1_7 : ∀ i : grid1.Coords, EltTy.bits .f32 = 32 ∨ (Rect.block (s := S32x1) S32x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S50000x1.size a
  hwx1_9 : ∀ i : grid1.Coords, EltTy.bits .f32 = 32 ∨ (Rect.block (s := S50000x1) S2000x1.size (cc1_transform_9 i) (hinb1_9 i)).WholeWords (EltTy.packing .f32)

variable [Facts₀]

def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_v21) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S32x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v39) S2000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x32 : Shape := ⟨2, ![50000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S50000x1 : Shape := ⟨2, ![50000, 1]⟩
abbrev S50000x64 : Shape := ⟨2, ![50000, 64]⟩
abbrev S1x64 : Shape := ⟨2, ![1, 64]⟩
abbrev S50000 : Shape := ⟨1, ![50000]⟩
abbrev S1600000x64 : Shape := ⟨2, ![1600000, 64]⟩
abbrev S1x32 : Shape := ⟨2, ![1, 32]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x32, .f32⟩
  | .hbm, ⟨25, _⟩ => ⟨S_, .f32⟩
  | .hbm, ⟨26, _⟩ => ⟨S50000x32, .f32⟩
  | .hbm, ⟨27, _⟩ => ⟨S1600000x1, .i32⟩
  | .hbm, ⟨28, _⟩ => ⟨S50000x32, .f32⟩
  | .hbm, ⟨29, _⟩ => ⟨S_, .f32⟩
  | .hbm, ⟨30, _⟩ => ⟨S1600000x1, .f32⟩
  | .hbm, ⟨31, _⟩ => ⟨S_, .f32⟩
  | .hbm, ⟨32, _⟩ => ⟨S50000x1, .f32⟩
  | .hbm, ⟨33, _⟩ => ⟨S1600000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x32, .f32⟩
  | .hbm, ⟨39, _⟩ => ⟨S50000x32, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000, .f32⟩
  | .hbm, ⟨49, _⟩ => ⟨S50000x1, .f32⟩
  | .hbm, ⟨50, _⟩ => ⟨S50000x1, .f32⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S50000x64, .f32⟩
  | .hbm, ⟨55, _⟩ => ⟨S50000x64, .f32⟩
  | .hbm, ⟨56, _⟩ => ⟨S_, .f32⟩
  | .hbm, ⟨57, _⟩ => ⟨S50000x64, .f32⟩
  | .hbm, ⟨58, _⟩ => ⟨S50000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S_, .f32⟩
  | .hbm, ⟨69, _⟩ => ⟨S50000x64, .f32⟩
  | .hbm, ⟨70, _⟩ => ⟨S1600000x1, .i32⟩
  | .hbm, ⟨71, _⟩ => ⟨S50000x64, .f32⟩
  | .hbm, ⟨72, _⟩ => ⟨S_, .f32⟩
  | .hbm, ⟨73, _⟩ => ⟨S1600000x1, .f32⟩
  | .hbm, ⟨74, _⟩ => ⟨S_, .f32⟩
  | .hbm, ⟨75, _⟩ => ⟨S50000x1, .f32⟩
  | .hbm, ⟨76, _⟩ => ⟨S1600000x1, .i32⟩
  | .hbm, ⟨77, _⟩ => ⟨S50000x1, .f32⟩
  | .hbm, ⟨78, _⟩ => ⟨S_, .f32⟩
  | .hbm, ⟨79, _⟩ => ⟨S50000x1, .f32⟩
  | .hbm, ⟨80, _⟩ => ⟨S50000x1, .f32⟩
  | .hbm, ⟨81, _⟩ => ⟨S50000x64, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S_, .f32⟩
  | .hbm, ⟨95, _⟩ => ⟨S50000x1, .f32⟩
  | .hbm, ⟨96, _⟩ => ⟨S50000x1, .f32⟩
  | .hbm, ⟨97, _⟩ => ⟨S50000x64, .f32⟩
  | .hbm, ⟨98, _⟩ => ⟨S50000x64, .f32⟩
  | .hbm, ⟨99, _⟩ => ⟨S50000x32, .f32⟩
  | .hbm, ⟨100, _⟩ => ⟨S1x32, .f32⟩
  | .hbm, ⟨101, _⟩ => ⟨S50000x32, .f32⟩
  | .hbm, ⟨102, _⟩ => ⟨S50000x32, .f32⟩
  | .hbm, ⟨103, _⟩ => ⟨S_, .f32⟩
  | .hbm, ⟨104, _⟩ => ⟨S50000x32, .f32⟩
  | .hbm, ⟨105, _⟩ => ⟨S50000x32, .f32⟩
  | .hbm, ⟨106, _⟩ => ⟨S50000x1, .f32⟩
  | .hbm, ⟨107, _⟩ => ⟨S1x1, .f32⟩
  | .hbm, ⟨108, _⟩ => ⟨S50000x1, .f32⟩
  | .hbm, ⟨109, _⟩ => ⟨S50000x1, .f32⟩
  | .hbm, ⟨110, _⟩ => ⟨S50000, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_v0 : Ref sig .tc := ⟨.hbm, 46, rfl⟩
abbrev main_call0_cst : Ref sig .tc := ⟨.hbm, 47, rfl⟩
abbrev main_call0_v1 : Ref sig .tc := ⟨.hbm, 48, rfl⟩
abbrev main_call0_v2 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_cst : Ref sig .tc := ⟨.hbm, 56, rfl⟩
abbrev main_call1_v0 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call2_v0 : Ref sig .tc := ⟨.hbm, 89, rfl⟩
abbrev main_call2_cst : Ref sig .tc := ⟨.hbm, 90, rfl⟩
abbrev main_call2_v1 : Ref sig .tc := ⟨.hbm, 91, rfl⟩
abbrev main_call2_v2 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call3_cst : Ref sig .tc := ⟨.hbm, 103, rfl⟩
abbrev main_call3_v0 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x32 : S_.BroadcastsInDim S50000x32 (![] : Fin 0 → Fin S50000x32.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  scatter_S50000x1_S1600000x1_S1600000x1_1_0_0_1_wf : ScatterDims.WF S50000x1 S1600000x1 S1600000x1 [1] [0] [0] 1
  dot_S50000x32_S32x64_S50000x64_1_0_0_1_n_n_wf : DotDims.WF S50000x32 S32x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  dot_S50000x32_S32x1_S50000x1_1_0_0_1_n_n_wf : DotDims.WF S50000x32 S32x1 S50000x1 [1] [0] [0] [1] [] []

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.Spec.lean ====
/-
  What both programs compute, written once over the extended reals, index by index.

  A two-layer GraphSAGE network with a small classifier on top. For a node row `r`:
    * `comb`   : the SAGE combination  a(r,·)·Wl + x(r,·)·Wr + b  (two inner products per output column);
    * `l2n`    : the row divided by  max(‖row‖₂, ε)  with ε the binary32 number nearest 1e-12;
    * `layer0` : max(·, 0) of the normalised combination  — the hidden features of layer 0;
    * `head`   : the classifier  max(h·Wc1 + bc1, 0)·Wc2 + bc2  on one normalised row;
    * `layer1` : the classifier on the normalised combination of layer 1 — one logit per node.
  The neighbourhood means `a` are arguments here: how they are gathered and summed is the same
  text in both programs and is never opened.
-/
import Idealize.ShloMosaic.PureOps.Ideal
import Idealize.ShloMosaic.Lib.ValueIdx

noncomputable section

namespace Cert.Sage

open Idealize.ShloMosaic Idealize.ShloMosaic.ValueIdx

/-- A rank-2 array of extended reals. -/
abbrev Arr (a b : Nat) : Type := (⟨2, ![a, b]⟩ : Shape).Idx → EReal

/-- The floor under the row norm: the binary32 number nearest 1e-12, as both programs spell it. -/
def eps : EReal := Ideal.ofBits .f32 0x2B8CBCCC#32

/-- Zero, as both programs spell it. -/
def zero : EReal := Ideal.ofBits .f32 0x00000000#32

/-- Row `r`, column `j` of  a·Wl + x·Wr + b  (the bias a one-row array). -/
def comb {N C H : Nat} (a x : Arr N C) (wl wr : Arr C H) (b : Arr 1 H) (r : Fin N) (j : Fin H) : EReal :=
  (∑ k : Fin C, a (ix2 r k) * wl (ix2 k j)) + (∑ k : Fin C, x (ix2 r k) * wr (ix2 k j)) + b (ix2 0 j)

/-- Entry `j` of a row divided by the larger of its Euclidean norm and ε. -/
def l2n {H : Nat} (o : Fin H → EReal) (j : Fin H) : EReal :=
  Ideal.div (o j) (max (Ideal.sqrt (∑ k : Fin H, o k * o k)) eps)

/-- Layer 0: the normalised combination, negative entries cut to zero. -/
def layer0 {N C H : Nat} (a x : Arr N C) (wl wr : Arr C H) (b : Arr 1 H) : Arr N H :=
  fun i => max (l2n (comb a x wl wr b (i 0)) (i 1)) zero

/-- The classifier on one row `h`: a hidden layer with negative entries cut to zero, then one logit. -/
def head {H Hc : Nat} (h : Fin H → EReal) (wc1 : Arr H Hc) (bc1 : Arr 1 Hc) (wc2 : Arr Hc 1) (bc2 : Arr 1 1) : EReal :=
  (∑ k : Fin Hc, max ((∑ q : Fin H, h q * wc1 (ix2 q k)) + bc1 (ix2 0 k)) zero * wc2 (ix2 k 0)) + bc2 (ix2 0 0)

/-- Layer 1 and the classifier: one logit per node, as a one-column array. -/
def layer1 {N C H Hc : Nat} (a x : Arr N C) (wl wr : Arr C H) (b : Arr 1 H)
    (wc1 : Arr H Hc) (bc1 : Arr 1 Hc) (wc2 : Arr Hc 1) (bc2 : Arr 1 1) : Arr N 1 :=
  fun i => head (l2n (comb a x wl wr b (i 0))) wc1 bc1 wc2 bc2

end Cert.Sage

end
-- ==== Proof.KBlock0.lean ====
/-
  Region 0 of the kernel program: after its 25 grid points the output array holds layer 0 of the network.

  Point `t` loads rows 2000·t … 2000·t+1999 of the neighbourhood means and of the features, the two weight matrices and
  the bias row whole, and stores one [2000, 64] block: two matrix products into a zero accumulator (inner products over
  the 32 feature columns), the bias, each row divided by the larger of its Euclidean norm and ε, negatives cut to zero.
  Read at an index that is the specification's `layer0` on the block's own rows; a block's row `p` is row 2000·t + p of
  the array, so what a point writes back is its block of `layer0` of the whole arrays, and the 25 blocks cover the
  50000 rows.
-/
import proofs.«178009_j15985868275842_1_alg».proof.Proof.Gen.KernelIdeal.Frame
import proofs.«178009_j15985868275842_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Block0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Two layout steps of a row norm kept as a column -/

/-- A length-`a` vector recast as an `[a, 1]` column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` columns reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block's matrix product at an index -/

/-! The product's operand indices, axis by axis: the left operand is read at (output row, contraction index), the
    right operand at (contraction index, output column). -/

theorem lhs_dot_0 (i : S2000x64.Idx) (q : dot_S2000x32_S32x64_S2000x64_1_0_0_1_n_n.contr.Idx) :
    (dot_S2000x32_S32x64_S2000x64_1_0_0_1_n_n.lhsIdx i q 0).val = (i 0).val := by
  unfold DotDims.lhsIdx
  rw [dif_neg (show ¬(0 : Fin S2000x32.rank) ∈ dot_S2000x32_S32x64_S2000x64_1_0_0_1_n_n.lhsBatch by decide), dif_pos (show (0 : Fin S2000x32.rank) ∈ dot_S2000x32_S32x64_S2000x64_1_0_0_1_n_n.lhsNonContracting by decide)]
  rfl
theorem lhs_dot_1 (i : S2000x64.Idx) (q : dot_S2000x32_S32x64_S2000x64_1_0_0_1_n_n.contr.Idx) :
    (dot_S2000x32_S32x64_S2000x64_1_0_0_1_n_n.lhsIdx i q 1).val = (q ⟨0, by decide⟩).val :=
  dot_S2000x32_S32x64_S2000x64_1_0_0_1_n_n.lhsIdx_val_of_single rfl i q
theorem rhs_dot_0 (i : S2000x64.Idx) (q : dot_S2000x32_S32x64_S2000x64_1_0_0_1_n_n.contr.Idx) :
    (dot_S2000x32_S32x64_S2000x64_1_0_0_1_n_n.rhsIdx i q 0).val = (q ⟨0, by decide⟩).val :=
  dot_S2000x32_S32x64_S2000x64_1_0_0_1_n_n.rhsIdx_val_of_single rfl i q
theorem rhs_dot_1 (i : S2000x64.Idx) (q : dot_S2000x32_S32x64_S2000x64_1_0_0_1_n_n.contr.Idx) :
    (dot_S2000x32_S32x64_S2000x64_1_0_0_1_n_n.rhsIdx i q 1).val = (i 1).val := by
  unfold DotDims.rhsIdx
  rw [dif_neg (show ¬(1 : Fin S32x64.rank) ∈ dot_S2000x32_S32x64_S2000x64_1_0_0_1_n_n.rhsBatch by decide), dif_pos (show (1 : Fin S32x64.rank) ∈ dot_S2000x32_S32x64_S2000x64_1_0_0_1_n_n.rhsNonContracting by decide)]
  rfl

/-- A `[2000,32]` block times a `[32,64]` matrix into the zero accumulator: at `(p, q)` the inner product of
    row `p` and column `q`. -/
theorem matmul_block_apply {φ₁ φ₂ : FTy} (l : FVec Ideal S2000x32 φ₁) (r : FVec Ideal S32x64 φ₂) (p : Fin 2000) (q : Fin 64) :
    matmul (F := Ideal) dot_S2000x32_S32x64_S2000x64_1_0_0_1_n_n none l r (constant (F := Ideal) S2000x64 .f32 0x00000000#32) (ix2 p q)
      = ∑ k : Fin 32, l (ix2 p k) * r (ix2 k q) := by
  refine (Ideal.matmul_constant_zero_apply dot_S2000x32_S32x64_S2000x64_1_0_0_1_n_n none l r (ix2 p q)).trans ?_
  rw [← Equiv.sum_comp (ValueIdx.contrEquiv1 dot_S2000x32_S32x64_S2000x64_1_0_0_1_n_n 32 rfl rfl).symm]
  refine Finset.sum_congr rfl fun k _ => ?_
  have hk := ValueIdx.contrEquiv1_symm_val dot_S2000x32_S32x64_S2000x64_1_0_0_1_n_n 32 rfl rfl k
  have el : dot_S2000x32_S32x64_S2000x64_1_0_0_1_n_n.lhsIdx (ix2 p q) ((ValueIdx.contrEquiv1 dot_S2000x32_S32x64_S2000x64_1_0_0_1_n_n 32 rfl rfl).symm k) = ix2 p k := funext fun a => Fin.ext (by
    match a with
    | ⟨0, _⟩ => exact lhs_dot_0 _ _
    | ⟨1, _⟩ => exact (lhs_dot_1 _ _).trans hk)
  have er : dot_S2000x32_S32x64_S2000x64_1_0_0_1_n_n.rhsIdx (ix2 p q) ((ValueIdx.contrEquiv1 dot_S2000x32_S32x64_S2000x64_1_0_0_1_n_n 32 rfl rfl).symm k) = ix2 k q := funext fun a => Fin.ext (by
    match a with
    | ⟨0, _⟩ => exact (rhs_dot_0 _ _).trans hk
    | ⟨1, _⟩ => exact rhs_dot_1 _ _)
  rw [el, er]

/-! ## The body's arithmetic at an index of the block -/

/-- The combination before it is normalised, as the body forms it from its five loaded blocks. -/
def pre (x0 x1 : Vec Ideal S2000x32 .f32) (x2 x3 : Vec Ideal S32x64 .f32) (x4 : Vec Ideal S1x64 .f32) : FVec Ideal S2000x64 .f32 :=
  addf (addf
      (matmul dot_S2000x32_S32x64_S2000x64_1_0_0_1_n_n none
        (truncf .bf16 (shapeCast S2000x32 x0 shapeCasts_S2000x32_S2000x32) bitsLt_bf16_f32) (truncf .bf16 x2 bitsLt_bf16_f32)
        (constant (F := Ideal) S2000x64 .f32 0x00000000#32))
      (matmul dot_S2000x32_S32x64_S2000x64_1_0_0_1_n_n none
        (truncf .bf16 x1 bitsLt_bf16_f32) (truncf .bf16 x3 bitsLt_bf16_f32)
        (constant (F := Ideal) S2000x64 .f32 0x00000000#32)))
    (broadcastTo S2000x64 (shapeCast S1x64 x4 shapeCasts_S1x64_S1x64) broadcasts_S1x64_S2000x64)

/-- The payload is the combination divided by its floored row norm, negative entries cut to zero. -/
theorem pay_eq (x0 x1 : Vec Ideal S2000x32 .f32) (x2 x3 : Vec Ideal S32x64 .f32) (x4 : Vec Ideal S1x64 .f32) :
    k0_pay1 (F := Ideal) x0 x1 x2 x3 x4
      = maximumf
          (divf (pre x0 x1 x2 x3 x4)
            (broadcastTo S2000x64
              (maximumf
                (sqrt (shapeCast S2000x1
                  (multiReduction (F := Ideal) .add [1] S2000 (mulf (pre x0 x1 x2 x3 x4) (pre x0 x1 x2 x3 x4)) 0x00000000#32
                    reduces_S2000x64_S2000 (.inl rfl) rfl)
                  shapeCasts_S2000_S2000x1))
                (broadcast S2000x1 (Scalar.ofBits (F := Ideal) .f32 0x2B8CBCCC#32)))
              broadcasts_S2000x1_S2000x64))
          (broadcast S2000x64 (Scalar.ofBits (F := Ideal) .f32 0x00000000#32)) := rfl

/-- The combination at `(p, q)`: two inner products and the bias (rounding to the narrow format changes nothing
    at the extended reals, and the two recasts are to the same shape). -/
theorem pre_apply (x0 x1 : Vec Ideal S2000x32 .f32) (x2 x3 : Vec Ideal S32x64 .f32) (x4 : Vec Ideal S1x64 .f32)
    (p : Fin 2000) (q : Fin 64) :
    pre x0 x1 x2 x3 x4 (ix2 p q) = Sage.comb (N := 2000) (C := 32) (H := 64) x0 x1 x2 x3 x4 p q := by
  unfold pre
  rw [addf_apply, addf_apply, matmul_block_apply, matmul_block_apply, broadcastTo_1b_ab_apply, shapeCast_self, shapeCast_self]
  rfl

/-- The lane sum of the squares at row `p`. -/
theorem sumsq_apply (v : FVec Ideal S2000x64 .f32) (hacc : (0x00000000#32 : BitVec 32) = 0x00000000#32) (p : Fin 2000) :
    multiReduction (F := Ideal) .add [1] S2000 (mulf v v) 0x00000000#32 reduces_S2000x64_S2000 (.inl rfl) hacc (ix1 p)
      = ∑ k : Fin 64, v (ix2 p k) * v (ix2 p k) := by
  refine (Ideal.multiReduction_add_single (mulf v v) 0x00000000#32 reduces_S2000x64_S2000 (.inl rfl) hacc (ix1 p)).trans ?_
  refine Finset.sum_congr rfl fun k _ => ?_
  have e : reduces_S2000x64_S2000.lift (ix1 p) k = ix2 p k := funext fun a => Fin.ext (by
    match a with
    | ⟨0, _⟩ => rfl
    | ⟨1, _⟩ => rfl)
  rw [e]; rfl

/-- At `(p, q)` the body's result is layer 0 of the network computed on the block's own rows. -/
theorem pay0_apply (x0 x1 : Vec Ideal S2000x32 .f32) (x2 x3 : Vec Ideal S32x64 .f32) (x4 : Vec Ideal S1x64 .f32)
    (p : Fin 2000) (q : Fin 64) :
    k0_pay1 (F := Ideal) x0 x1 x2 x3 x4 (ix2 p q)
      = max (Sage.l2n (Sage.comb (N := 2000) (C := 32) (H := 64) x0 x1 x2 x3 x4 p) q) Sage.zero := by
  rw [pay_eq, maximumf_apply, divf_apply, broadcastTo_a1_ab_apply, maximumf_apply, pre_apply]
  show max (Ideal.div _ (max (Ideal.sqrt (shapeCast S2000x1 _ shapeCasts_S2000_S2000x1 (ix2 p (0 : Fin 1)))) Sage.eps)) Sage.zero = _
  rw [shapeCast_a_a1_apply, sumsq_apply]
  simp only [pre_apply]
  rfl

/-! ## From the blocks to the array -/

/-- The whole-block rectangle starts at the origin. -/
theorem zero_offsets : (![0, 0] : Fin 2 → Nat) = fun _ => 0 := funext fun a => by fin_cases a <;> rfl

/-- The printed block index maps over the 25 points: the two row-blocked inputs move with the output down the rows,
    the weights and the bias are whole at every point, and point `t` holds row block `t`. -/
theorem block_indices : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Layer 0 at an index `i` of the whole array from blocks that hold row `i 0` of the two row-blocked inputs at
    their row `p`, and the weights and bias whole. -/
theorem pay_block (A X : Sage.Arr 50000 32) (Wl Wr : Sage.Arr 32 64) (B : Sage.Arr 1 64)
    (x0 x1 : Vec Ideal S2000x32 .f32) (x2 x3 : Vec Ideal S32x64 .f32) (x4 : Vec Ideal S1x64 .f32)
    (i : S50000x64.Idx) (r : Fin 50000) (p : Fin 2000) (q : Fin 64)
    (hr : (i 0).val = r.val) (hq : (i 1).val = q.val)
    (h0 : ∀ k : Fin 32, x0 (ix2 p k) = A (ix2 r k)) (h1 : ∀ k : Fin 32, x1 (ix2 p k) = X (ix2 r k))
    (h2 : x2 = Wl) (h3 : x3 = Wr) (h4 : x4 = B) :
    k0_pay1 (F := Ideal) x0 x1 x2 x3 x4 (ix2 p q) = Sage.layer0 (N := 50000) (C := 32) (H := 64) A X Wl Wr B i := by
  rw [pay0_apply]
  subst h2 h3 h4
  have er : i 0 = r := Fin.ext hr
  have eq : i 1 = q := Fin.ext hq
  show _ = max (Sage.l2n (Sage.comb A X x2 x3 x4 (i 0)) (i 1)) Sage.zero
  rw [er, eq]
  have ec : Sage.comb (N := 2000) (C := 32) (H := 64) x0 x1 x2 x3 x4 p = Sage.comb (N := 50000) (C := 32) (H := 64) A X x2 x3 x4 r := by
    funext j
    unfold Sage.comb
    simp only [h0, h1]
  rw [ec]

/-- Point `t` writes back rows `2000·t … 2000·t + 1999` of layer 0 of the arrays as the region finds them. -/
theorem flushed_eq (c : Dev nD) (t : Fin cfg0.N) :
    (dat0 (F := Ideal) V c).flushed 5 t = ((cfg0.win 5).blk t).view.read (Elt Ideal)
      (Sage.layer0 (N := 50000) (C := 32) (H := 64) (V c main_v21) (V c main_arg0) (V c main_arg2) (V c main_arg4) (V c main_v22)) := by
  show (cfg0.win 5).cut (grid0.coords t) ((dat0 V c).after 5 t) = _
  rw [after0_5]
  unfold out0_5
  rw [View.canon_unit_zero zero_offsets]
  simp only [View.ld_unit_zero (S := S2000x32) zero_offsets, View.ld_unit_zero (S := S32x64) zero_offsets, View.ld_unit_zero (S := S1x64) zero_offsets]
  obtain ⟨e00, e01, e10, e11, e20, e21, e30, e31, e40, e41, e50, e51⟩ := block_indices t
  have hN : grid0.N = 25 := by decide
  have ht : t.val < 25 := hN ▸ t.isLt
  funext j
  obtain ⟨p, q, rfl⟩ : ∃ (p : Fin 2000) (q : Fin 64), j = ix2 p q := ⟨j 0, j 1, eq_ix2 j⟩
  have hp : p.val < 2000 := p.isLt
  show k0_pay1 (F := Ideal) (iblk0 V c 0 t) (iblk0 V c 1 t) (iblk0 V c 2 t) (iblk0 V c 3 t) (iblk0 V c 4 t) (ix2 p q)
    = Sage.layer0 (N := 50000) (C := 32) (H := 64) (V c main_v21) (V c main_arg0) (V c main_arg2) (V c main_arg4) (V c main_v22)
        (((cfg0.win 5).blk t).view.emb (ix2 p q))
  refine pay_block (V c main_v21) (V c main_arg0) (V c main_arg2) (V c main_arg4) (V c main_v22) _ _ _ _ _ _
    ⟨t.val * 2000 + p.val, by omega⟩ p q ?_ ?_ ?_ ?_ ?_ ?_ ?_
  · show win0_5.index t (0 : Fin 2) * 2000 + 1 * p.val = t.val * 2000 + p.val
    omega
  · show win0_5.index t (1 : Fin 2) * 64 + 1 * q.val = q.val
    omega
  · intro k
    show V c main_v21 (((cfg0.win 0).blk t).view.emb (ix2 p k)) = V c main_v21 (ix2 ⟨t.val * 2000 + p.val, by omega⟩ k)
    refine congrArg (V c main_v21) (funext fun a => Fin.ext ?_)
    match a with
    | ⟨0, _⟩ => show win0_0.index t (0 : Fin 2) * 2000 + 1 * p.val = t.val * 2000 + p.val; omega
    | ⟨1, _⟩ => show win0_0.index t (1 : Fin 2) * 32 + 1 * k.val = k.val; omega
  · intro k
    show V c main_arg0 (((cfg0.win 1).blk t).view.emb (ix2 p k)) = V c main_arg0 (ix2 ⟨t.val * 2000 + p.val, by omega⟩ k)
    refine congrArg (V c main_arg0) (funext fun a => Fin.ext ?_)
    match a with
    | ⟨0, _⟩ => show win0_1.index t (0 : Fin 2) * 2000 + 1 * p.val = t.val * 2000 + p.val; omega
    | ⟨1, _⟩ => show win0_1.index t (1 : Fin 2) * 32 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 32 + 1 * (y 0).val = (y 0).val; omega
    | ⟨1, _⟩ => show win0_2.index t (1 : Fin 2) * 64 + 1 * (y 1).val = (y 1).val; omega
  · funext y
    show V c main_arg4 (((cfg0.win 3).blk t).view.emb y) = V c main_arg4 y
    refine congrArg (V c main_arg4) (funext fun a => Fin.ext ?_)
    match a with
    | ⟨0, _⟩ => show win0_3.index t (0 : Fin 2) * 32 + 1 * (y 0).val = (y 0).val; omega
    | ⟨1, _⟩ => show win0_3.index t (1 : Fin 2) * 64 + 1 * (y 1).val = (y 1).val; omega
  · funext y
    show V c main_v22 (((cfg0.win 4).blk t).view.emb y) = V c main_v22 y
    refine congrArg (V c main_v22) (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega

/-- Membership in point `t`'s block of the output, coordinate by coordinate. -/
theorem mem_blk (t : Fin cfg0.N) (i : S50000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v23).slice (win0_5.rect t)).set ↔ _
  rw [View.set_slice_whole, Rect.mem_set_unit]
  exact Iff.rfl

/-- Every row `r` of the 50000 lies in the block of point `r / 2000`. -/
theorem covered (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : grid0.N = 25 := by decide
  have hlt : (i 0).val / 2000 < grid0.N := by rw [hN]; omega
  obtain ⟨e00, e01, e10, e11, e20, e21, e30, e31, e40, e41, e50, e51⟩ := block_indices ⟨(i 0).val / 2000, hlt⟩
  have e50' : win0_5.index ⟨(i 0).val / 2000, hlt⟩ (0 : Fin 2) = (i 0).val / 2000 := e50
  refine ⟨⟨(i 0).val / 2000, hlt⟩, flush0_5 _, ?_⟩
  rw [mem_blk]
  intro a
  match a with
  | ⟨0, _⟩ => show win0_5.index ⟨(i 0).val / 2000, hlt⟩ (0 : Fin 2) * 2000 ≤ (i 0).val ∧ (i 0).val < win0_5.index ⟨(i 0).val / 2000, hlt⟩ (0 : Fin 2) * 2000 + 2000; omega
  | ⟨1, _⟩ => show win0_5.index ⟨(i 0).val / 2000, hlt⟩ (1 : Fin 2) * 64 ≤ (i 1).val ∧ (i 1).val < win0_5.index ⟨(i 0).val / 2000, hlt⟩ (1 : Fin 2) * 64 + 64; omega

/-- After the last point the output array holds layer 0 of the network on the arrays as the region finds them. -/
theorem final0 (c : Dev nD) :
    (dat0 (F := Ideal) V c).arrAt 5 cfg0.N
      = Sage.layer0 (N := 50000) (C := 32) (H := 64) (V c main_v21) (V c main_arg0) (V c main_arg2) (V c main_arg4) (V c main_v22) :=
  (dat0 (F := Ideal) V c).arrAt_eq_of_cover 5 _ (fun t _ => flushed_eq V c t) covered

end Cert.KernelIdeal.Block0

end
-- ==== Proof.KBlock1.lean ====
import proofs.«178009_j15985868275842_1_alg».proof.Proof.Gen.KernelIdeal.Frame
import proofs.«178009_j15985868275842_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Block1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! The second kernel region, block by block. At each of the 25 points the body reads 2000 rows of the neighbourhood means and
of the hidden features together with the whole weight and bias arrays, and stores 2000 logits. Read index by index, the stored
block is the classifier applied to the normalised combination of each of its rows; the 25 blocks tile the 50000 rows, so the
output array is the specification's `layer1` of the arrays the region finds. -/

/-! ## Layout operations read at an index -/

section Layout
variable {α : Type}

/-- A length-`a` array cast to one column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The sum along a row -/

/-- The sum over the 64 lanes of row `p`. -/
theorem rowSum_apply (v : FVec Ideal S2000x64 .f32) (h : S2000x64.Reduces [1] S2000) (hφ : FKind.Formats FTy.f32)
    (hacc : (0x00000000#32 : BitVec 32) = 0x00000000#32) (p : Fin 2000) :
    multiReduction (F := Ideal) .add [1] S2000 v 0x00000000#32 h hφ hacc (ix1 p) = ∑ k : Fin 64, v (ix2 p k) := by
  refine (Ideal.multiReduction_add_single v 0x00000000#32 h hφ hacc (ix1 p)).trans ?_
  refine Finset.sum_congr rfl fun k _ => congrArg v ?_
  funext c
  apply Fin.ext
  rw [h.lift_val]
  match c with
  | ⟨0, _⟩ => rfl
  | ⟨1, _⟩ => rfl

/-! ## The three matrix products read at an index -/

/-- Where the coordinates of an output index and of the contraction index sit in the two operands' indices, axis by axis. -/
theorem lhs_mmComb_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_mmComb_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_mmComb_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_mmComb_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product of a `[2000, 64]` block with a `[64, 64]` matrix, accumulated from zero, at `(p, j)`: the inner product of row `p` with column `j`. -/
theorem mmComb_apply {φ₁ φ₂ : FTy} (l : FVec Ideal S2000x64 φ₁) (r : FVec Ideal S64x64 φ₂) (p : Fin 2000) (j : Fin 64) :
    matmul (F := Ideal) dot_S2000x64_S64x64_S2000x64_1_0_0_1_n_n none l r (constant (F := Ideal) S2000x64 .f32 0x00000000#32) (ix2 p j)
      = ∑ k : Fin 64, l (ix2 p k) * r (ix2 k j) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p j) ((ValueIdx.contrEquiv1 dot_S2000x64_S64x64_S2000x64_1_0_0_1_n_n 64 rfl rfl).symm k) = ix2 p k := funext fun a => Fin.ext (by
    match a with
    | ⟨0, _⟩ => exact lhs_mmComb_0 _ _
    | ⟨1, _⟩ => exact (lhs_mmComb_1 _ _).trans hk)
  have er : dot_S2000x64_S64x64_S2000x64_1_0_0_1_n_n.rhsIdx (ix2 p j) ((ValueIdx.contrEquiv1 dot_S2000x64_S64x64_S2000x64_1_0_0_1_n_n 64 rfl rfl).symm k) = ix2 k j := funext fun a => Fin.ext (by
    match a with
    | ⟨0, _⟩ => exact (rhs_mmComb_0 _ _).trans hk
    | ⟨1, _⟩ => exact rhs_mmComb_1 _ _)
  rw [el, er]

/-- Where the coordinates of an output index and of the contraction index sit in the two operands' indices, axis by axis. -/
theorem lhs_mmHid_0 (i : S2000x32.Idx) (q : dot_S2000x64_S64x32_S2000x32_1_0_0_1_n_n.contr.Idx) :
    (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem lhs_mmHid_1 (i : S2000x32.Idx) (q : dot_S2000x64_S64x32_S2000x32_1_0_0_1_n_n.contr.Idx) :
    (dot_S2000x64_S64x32_S2000x32_1_0_0_1_n_n.lhsIdx i q 1).val = (q ⟨0, by decide⟩).val :=
  dot_S2000x64_S64x32_S2000x32_1_0_0_1_n_n.lhsIdx_val_of_single rfl i q
theorem rhs_mmHid_0 (i : S2000x32.Idx) (q : dot_S2000x64_S64x32_S2000x32_1_0_0_1_n_n.contr.Idx) :
    (dot_S2000x64_S64x32_S2000x32_1_0_0_1_n_n.rhsIdx i q 0).val = (q ⟨0, by decide⟩).val :=
  dot_S2000x64_S64x32_S2000x32_1_0_0_1_n_n.rhsIdx_val_of_single rfl i q
theorem rhs_mmHid_1 (i : S2000x32.Idx) (q : dot_S2000x64_S64x32_S2000x32_1_0_0_1_n_n.contr.Idx) :
    (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- The product of a `[2000, 64]` block with a `[64, 32]` matrix, accumulated from zero, at `(p, j)`: the inner product of row `p` with column `j`. -/
theorem mmHid_apply {φ₁ φ₂ : FTy} (l : FVec Ideal S2000x64 φ₁) (r : FVec Ideal S64x32 φ₂) (p : Fin 2000) (j : Fin 32) :
    matmul (F := Ideal) dot_S2000x64_S64x32_S2000x32_1_0_0_1_n_n none l r (constant (F := Ideal) S2000x32 .f32 0x00000000#32) (ix2 p j)
      = ∑ k : Fin 64, l (ix2 p k) * r (ix2 k j) := by
  simp only [matmul]
  rw [Ideal.matmul_constant_zero_apply, ← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx (ix2 p j) ((ValueIdx.contrEquiv1 dot_S2000x64_S64x32_S2000x32_1_0_0_1_n_n 64 rfl rfl).symm k) = ix2 p k := funext fun a => Fin.ext (by
    match a with
    | ⟨0, _⟩ => exact lhs_mmHid_0 _ _
    | ⟨1, _⟩ => exact (lhs_mmHid_1 _ _).trans hk)
  have er : dot_S2000x64_S64x32_S2000x32_1_0_0_1_n_n.rhsIdx (ix2 p j) ((ValueIdx.contrEquiv1 dot_S2000x64_S64x32_S2000x32_1_0_0_1_n_n 64 rfl rfl).symm k) = ix2 k j := funext fun a => Fin.ext (by
    match a with
    | ⟨0, _⟩ => exact (rhs_mmHid_0 _ _).trans hk
    | ⟨1, _⟩ => exact rhs_mmHid_1 _ _)
  rw [el, er]

/-- Where the coordinates of an output index and of the contraction index sit in the two operands' indices, axis by axis. -/
theorem lhs_mmOut_0 (i : S2000x1.Idx) (q : dot_S2000x32_S32x1_S2000x1_1_0_0_1_n_n.contr.Idx) :
    (dot_S2000x32_S32x1_S2000x1_1_0_0_1_n_n.lhsIdx i q 0).val = (i 0).val := by
  unfold DotDims.lhsIdx
  rw [dif_neg (show ¬(0 : Fin S2000x32.rank) ∈ dot_S2000x32_S32x1_S2000x1_1_0_0_1_n_n.lhsBatch by decide), dif_pos (show (0 : Fin S2000x32.rank) ∈ dot_S2000x32_S32x1_S2000x1_1_0_0_1_n_n.lhsNonContracting by decide)]
  rfl
theorem lhs_mmOut_1 (i : S2000x1.Idx) (q : dot_S2000x32_S32x1_S2000x1_1_0_0_1_n_n.contr.Idx) :
    (dot_S2000x32_S32x1_S2000x1_1_0_0_1_n_n.lhsIdx i q 1).val = (q ⟨0, by decide⟩).val :=
  dot_S2000x32_S32x1_S2000x1_1_0_0_1_n_n.lhsIdx_val_of_single rfl i q
theorem rhs_mmOut_0 (i : S2000x1.Idx) (q : dot_S2000x32_S32x1_S2000x1_1_0_0_1_n_n.contr.Idx) :
    (dot_S2000x32_S32x1_S2000x1_1_0_0_1_n_n.rhsIdx i q 0).val = (q ⟨0, by decide⟩).val :=
  dot_S2000x32_S32x1_S2000x1_1_0_0_1_n_n.rhsIdx_val_of_single rfl i q
theorem rhs_mmOut_1 (i : S2000x1.Idx) (q : dot_S2000x32_S32x1_S2000x1_1_0_0_1_n_n.contr.Idx) :
    (dot_S2000x32_S32x1_S2000x1_1_0_0_1_n_n.rhsIdx i q 1).val = (i 1).val := by
  unfold DotDims.rhsIdx
  rw [dif_neg (show ¬(1 : Fin S32x1.rank) ∈ dot_S2000x32_S32x1_S2000x1_1_0_0_1_n_n.rhsBatch by decide), dif_pos (show (1 : Fin S32x1.rank) ∈ dot_S2000x32_S32x1_S2000x1_1_0_0_1_n_n.rhsNonContracting by decide)]
  rfl

/-- The product of a `[2000, 32]` block with a `[32, 1]` matrix, accumulated from zero, at `(p, j)`: the inner product of row `p` with column `j`. -/
theorem mmOut_apply {φ₁ φ₂ : FTy} (l : FVec Ideal S2000x32 φ₁) (r : FVec Ideal S32x1 φ₂) (p : Fin 2000) (j : Fin 1) :
    matmul (F := Ideal) dot_S2000x32_S32x1_S2000x1_1_0_0_1_n_n none l r (constant (F := Ideal) S2000x1 .f32 0x00000000#32) (ix2 p j)
      = ∑ k : Fin 32, l (ix2 p k) * r (ix2 k j) := by
  simp only [matmul]
  rw [Ideal.matmul_constant_zero_apply, ← Equiv.sum_comp (ValueIdx.contrEquiv1 dot_S2000x32_S32x1_S2000x1_1_0_0_1_n_n 32 rfl rfl).symm]
  refine Finset.sum_congr rfl fun k _ => ?_
  have hk := ValueIdx.contrEquiv1_symm_val dot_S2000x32_S32x1_S2000x1_1_0_0_1_n_n 32 rfl rfl k
  have el : dot_S2000x32_S32x1_S2000x1_1_0_0_1_n_n.lhsIdx (ix2 p j) ((ValueIdx.contrEquiv1 dot_S2000x32_S32x1_S2000x1_1_0_0_1_n_n 32 rfl rfl).symm k) = ix2 p k := funext fun a => Fin.ext (by
    match a with
    | ⟨0, _⟩ => exact lhs_mmOut_0 _ _
    | ⟨1, _⟩ => exact (lhs_mmOut_1 _ _).trans hk)
  have er : dot_S2000x32_S32x1_S2000x1_1_0_0_1_n_n.rhsIdx (ix2 p j) ((ValueIdx.contrEquiv1 dot_S2000x32_S32x1_S2000x1_1_0_0_1_n_n 32 rfl rfl).symm k) = ix2 k j := funext fun a => Fin.ext (by
    match a with
    | ⟨0, _⟩ => exact (rhs_mmOut_0 _ _).trans hk
    | ⟨1, _⟩ => exact rhs_mmOut_1 _ _)
  rw [el, er]

/-! ## The body's arithmetic, stage by stage -/

/-- The combination  a·Wl + x·Wr + b  on one block of 2000 rows, as the body spells it. -/
def combV (x0 x1 : Vec Ideal S2000x64 .f32) (x2 x3 : Vec Ideal S64x64 .f32) (x4 : Vec Ideal S1x64 .f32) : FVec Ideal S2000x64 .f32 :=
  addf (addf
      (matmul dot_S2000x64_S64x64_S2000x64_1_0_0_1_n_n none (truncf .bf16 (shapeCast S2000x64 x0 shapeCasts_S2000x64_S2000x64) bitsLt_bf16_f32)
        (truncf .bf16 x2 bitsLt_bf16_f32) (constant S2000x64 .f32 0x00000000#32))
      (matmul dot_S2000x64_S64x64_S2000x64_1_0_0_1_n_n none (truncf .bf16 (shapeCast S2000x64 x1 shapeCasts_S2000x64_S2000x64) bitsLt_bf16_f32)
        (truncf .bf16 x3 bitsLt_bf16_f32) (constant S2000x64 .f32 0x00000000#32)))
    (broadcastTo S2000x64 (shapeCast S1x64 x4 shapeCasts_S1x64_S1x64) broadcasts_S1x64_S2000x64)

/-- Every row divided by the larger of its Euclidean norm and ε, as the body spells it. -/
def normV (o : FVec Ideal S2000x64 .f32) : FVec Ideal S2000x64 .f32 :=
  divf o (broadcastTo S2000x64
    (maximumf
      (sqrt (shapeCast S2000x1 (multiReduction .add [1] S2000 (mulf o o) 0x00000000#32 reduces_S2000x64_S2000 (.inl rfl) rfl) shapeCasts_S2000_S2000x1))
      (broadcast S2000x1 (Scalar.ofBits .f32 0x2B8CBCCC#32)))
    broadcasts_S2000x1_S2000x64)

/-- The combination at `(p, j)` is the specification's. -/
theorem combV_apply (x0 x1 : Vec Ideal S2000x64 .f32) (x2 x3 : Vec Ideal S64x64 .f32) (x4 : Vec Ideal S1x64 .f32) (p : Fin 2000) (j : Fin 64) :
    combV x0 x1 x2 x3 x4 (ix2 p j) = Sage.comb (N := 2000) (C := 64) (H := 64) x0 x1 x2 x3 x4 p j := by
  unfold combV Sage.comb
  simp only [shapeCast_self]
  refine (addf_apply _ _ _).trans (congrArg₂ (· + ·) ((addf_apply _ _ _).trans (congrArg₂ (· + ·) ?_ ?_)) ?_)
  · exact mmComb_apply _ _ p j
  · exact mmComb_apply _ _ p j
  · exact ValueIdx.broadcastTo_1b_ab_apply x4 _ p j

/-- The normalised block at `(p, j)` is the specification's normalisation of row `p`. -/
theorem normV_apply (o : FVec Ideal S2000x64 .f32) (p : Fin 2000) (j : Fin 64) :
    normV o (ix2 p j) = Sage.l2n (fun c : Fin 64 => o (ix2 p c)) j := by
  unfold normV Sage.l2n
  refine (divf_apply _ _ _).trans (congrArg (Ideal.div (o (ix2 p j))) ?_)
  refine (broadcastTo_a1_ab_apply _ _ p j).trans ?_
  refine (maximumf_apply _ _ _).trans (congrArg₂ max ?_ rfl)
  show Ideal.sqrt _ = Ideal.sqrt _
  refine congrArg Ideal.sqrt ?_
  refine (shapeCast_a_a1_apply _ _ p 0).trans ?_
  exact rowSum_apply _ _ _ _ p

/-- The hidden classifier layer at `(p, k)`: the normalised combination of row `p` against column `k` of the weights, plus the bias, negatives cut to zero. -/
theorem pay2_apply (x0 x1 : Vec Ideal S2000x64 .f32) (x2 x3 : Vec Ideal S64x64 .f32) (x4 : Vec Ideal S1x64 .f32)
    (x5 : Vec Ideal S64x32 .f32) (x6 : Vec Ideal S1x32 .f32) (p : Fin 2000) (k : Fin 32) :
    k1_pay2 (F := Ideal) x0 x1 x2 x3 x4 x5 x6 (ix2 p k)
      = max ((∑ q : Fin 64, Sage.l2n (Sage.comb (N := 2000) (C := 64) (H := 64) x0 x1 x2 x3 x4 p) q * x5 (ix2 q k)) + x6 (ix2 0 k)) Sage.zero := by
  have e : k1_pay2 (F := Ideal) x0 x1 x2 x3 x4 x5 x6
      = truncf .bf16 (maximumf (addf
          (matmul dot_S2000x64_S64x32_S2000x32_1_0_0_1_n_n none (truncf .bf16 (normV (combV x0 x1 x2 x3 x4)) bitsLt_bf16_f32)
            (truncf .bf16 x5 bitsLt_bf16_f32) (constant S2000x32 .f32 0x00000000#32))
          (broadcastTo S2000x32 (shapeCast S1x32 x6 shapeCasts_S1x32_S1x32) broadcasts_S1x32_S2000x32))
        (broadcast S2000x32 (Scalar.ofBits .f32 0x00000000#32))) bitsLt_bf16_f32 := rfl
  rw [e]
  refine (truncf_apply (ψ := .bf16) _ bitsLt_bf16_f32 _).trans ((maximumf_apply _ _ _).trans (congrArg₂ max ?_ rfl))
  refine (addf_apply _ _ _).trans (congrArg₂ (· + ·) ?_ ?_)
  · refine (mmHid_apply _ _ p k).trans (Finset.sum_congr rfl fun q _ => congrArg (· * x5 (ix2 q k)) ?_)
    refine (normV_apply _ p q).trans ?_
    exact congrArg (fun f => Sage.l2n f q) (funext fun c => combV_apply x0 x1 x2 x3 x4 p c)
  · rw [shapeCast_self]
    exact ValueIdx.broadcastTo_1b_ab_apply x6 _ p k

/-- The stored block at row `p`: the classifier's logit of the normalised combination of row `p`. -/
theorem pay1_apply (x0 x1 : Vec Ideal S2000x64 .f32) (x2 x3 : Vec Ideal S64x64 .f32) (x4 : Vec Ideal S1x64 .f32)
    (x5 : Vec Ideal S64x32 .f32) (x6 : Vec Ideal S1x32 .f32) (x7 : Vec Ideal S32x1 .f32) (x8 : Vec Ideal S1x1 .f32) (p : Fin 2000) :
    k1_pay1 (F := Ideal) (k1_pay2 x0 x1 x2 x3 x4 x5 x6) x7 x8 (ix2 p 0)
      = Sage.head (Sage.l2n (Sage.comb (N := 2000) (C := 64) (H := 64) x0 x1 x2 x3 x4 p)) x5 x6 x7 x8 := by
  unfold k1_pay1 Sage.head
  refine (addf_apply _ _ _).trans (congrArg₂ (· + ·) ?_ ?_)
  · refine (mmOut_apply _ _ p 0).trans (Finset.sum_congr rfl fun k _ => congrArg (· * x7 (ix2 k 0)) ?_)
    exact pay2_apply x0 x1 x2 x3 x4 x5 x6 p k
  · rw [shapeCast_self]
    exact ValueIdx.broadcastTo_1b_ab_apply x8 _ p 0

/-! ## From blocks to the array -/

/-- The combination of a row depends only on that row of the two row-indexed arrays. -/
theorem comb_rows {N M C H : Nat} (a x : Sage.Arr N C) (a' x' : Sage.Arr M C) (wl wr : Sage.Arr C H) (b : Sage.Arr 1 H) (p : Fin N) (r : Fin M)
    (ha : ∀ k, a (ix2 p k) = a' (ix2 r k)) (hx : ∀ k, x (ix2 p k) = x' (ix2 r k)) :
    Sage.comb a x wl wr b p = Sage.comb a' x' wl wr b r := by
  funext j
  unfold Sage.comb
  simp only [ha, hx]

/-- The zero offsets of a whole-block load or store, as a constant function. -/
theorem zeroOffsets : (![0, 0] : Fin 2 → Nat) = fun _ => 0 := funext fun a => by fin_cases a <;> rfl

/-- The block index maps at each of the 25 points: the two row-blocked inputs sit on the output's row block, the output's row
    block is the point's number, and every other block index is 0. -/
theorem idx_facts : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Row `p` of point `t`'s block of the neighbourhood means is the array's row that row `p` of the output block lands on. -/
theorem rows0 (c : Dev nD) (t : Fin cfg1.N) (p : Fin 2000) (k : Fin 64) :
    (iblk1 V c 0 t : S2000x64.Idx → EReal) (ix2 p k)
      = (V c main_v35 : S50000x64.Idx → EReal) (ix2 (n0 := 50000) ((((cfg1.win 9).blk t).view.emb (ix2 p (0 : Fin 1))) 0) k) := by
  obtain ⟨a0, a1, b0, b1, c0, c1, d0, d1, e0, e1, f0, f1, g0, g1, h0, h1, i0, i1, o0, o1⟩ := idx_facts t
  show V c main_v35 (((cfg1.win 0).blk t).view.emb (ix2 p k)) = _
  refine congrArg (V c main_v35) (funext fun a => Fin.ext ?_)
  match a with
  | ⟨0, _⟩ => show win1_0.index t (0 : Fin 2) * 2000 + 1 * p.val = win1_9.index t (0 : Fin 2) * 2000 + 1 * p.val; omega
  | ⟨1, _⟩ => show win1_0.index t (1 : Fin 2) * 64 + 1 * k.val = k.val; omega

/-- Row `p` of point `t`'s block of the hidden features is the array's row that row `p` of the output block lands on. -/
theorem rows1 (c : Dev nD) (t : Fin cfg1.N) (p : Fin 2000) (k : Fin 64) :
    (iblk1 V c 1 t : S2000x64.Idx → EReal) (ix2 p k)
      = (V c main_v23 : S50000x64.Idx → EReal) (ix2 (n0 := 50000) ((((cfg1.win 9).blk t).view.emb (ix2 p (0 : Fin 1))) 0) k) := by
  obtain ⟨a0, a1, b0, b1, c0, c1, d0, d1, e0, e1, f0, f1, g0, g1, h0, h1, i0, i1, o0, o1⟩ := idx_facts t
  show V c main_v23 (((cfg1.win 1).blk t).view.emb (ix2 p k)) = _
  refine congrArg (V c main_v23) (funext fun a => Fin.ext ?_)
  match a with
  | ⟨0, _⟩ => show win1_1.index t (0 : Fin 2) * 2000 + 1 * p.val = win1_9.index t (0 : Fin 2) * 2000 + 1 * p.val; omega
  | ⟨1, _⟩ => show win1_1.index t (1 : Fin 2) * 64 + 1 * k.val = k.val; omega

/-- The weight matrix of the means is one block, the same at every point: its block is the array. -/
theorem whole2 (c : Dev nD) (t : Fin cfg1.N) : (iblk1 V c 2 t : S64x64.Idx → EReal) = V c main_arg5 := by
  obtain ⟨a0, a1, b0, b1, c0, c1, d0, d1, e0, e1, f0, f1, g0, g1, h0, h1, i0, i1, o0, o1⟩ := idx_facts t
  funext y
  show V c main_arg5 (((cfg1.win 2).blk t).view.emb y) = V c main_arg5 y
  refine congrArg (V c main_arg5) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The weight matrix of the features is one block, the same at every point: its block is the array. -/
theorem whole3 (c : Dev nD) (t : Fin cfg1.N) : (iblk1 V c 3 t : S64x64.Idx → EReal) = V c main_arg7 := by
  obtain ⟨a0, a1, b0, b1, c0, c1, d0, d1, e0, e1, f0, f1, g0, g1, h0, h1, i0, i1, o0, o1⟩ := idx_facts t
  funext y
  show V c main_arg7 (((cfg1.win 3).blk t).view.emb y) = V c main_arg7 y
  refine congrArg (V c main_arg7) (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The bias row of the combination is one block, the same at every point: its block is the array. -/
theorem whole4 (c : Dev nD) (t : Fin cfg1.N) : (iblk1 V c 4 t : S1x64.Idx → EReal) = V c main_v36 := by
  obtain ⟨a0, a1, b0, b1, c0, c1, d0, d1, e0, e1, f0, f1, g0, g1, h0, h1, i0, i1, o0, o1⟩ := idx_facts t
  funext y
  show V c main_v36 (((cfg1.win 4).blk t).view.emb y) = V c main_v36 y
  refine congrArg (V c main_v36) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The classifier's hidden weight matrix is one block, the same at every point: its block is the array. -/
theorem whole5 (c : Dev nD) (t : Fin cfg1.N) : (iblk1 V c 5 t : S64x32.Idx → EReal) = V c main_arg8 := by
  obtain ⟨a0, a1, b0, b1, c0, c1, d0, d1, e0, e1, f0, f1, g0, g1, h0, h1, i0, i1, o0, o1⟩ := idx_facts t
  funext y
  show V c main_arg8 (((cfg1.win 5).blk t).view.emb y) = V c main_arg8 y
  refine congrArg (V c main_arg8) (funext fun a => Fin.ext ?_)
  match a with
  | ⟨0, _⟩ => show win1_5.index t (0 : Fin 2) * 64 + 1 * (y 0).val = (y 0).val; omega
  | ⟨1, _⟩ => show win1_5.index t (1 : Fin 2) * 32 + 1 * (y 1).val = (y 1).val; omega

/-- The classifier's hidden bias row is one block, the same at every point: its block is the array. -/
theorem whole6 (c : Dev nD) (t : Fin cfg1.N) : (iblk1 V c 6 t : S1x32.Idx → EReal) = V c main_v37 := by
  obtain ⟨a0, a1, b0, b1, c0, c1, d0, d1, e0, e1, f0, f1, g0, g1, h0, h1, i0, i1, o0, o1⟩ := idx_facts t
  funext y
  show V c main_v37 (((cfg1.win 6).blk t).view.emb y) = V c main_v37 y
  refine congrArg (V c main_v37) (funext fun a => Fin.ext ?_)
  match a with
  | ⟨0, _⟩ => show win1_6.index t (0 : Fin 2) * 1 + 1 * (y 0).val = (y 0).val; omega
  | ⟨1, _⟩ => show win1_6.index t (1 : Fin 2) * 32 + 1 * (y 1).val = (y 1).val; omega

/-- The classifier's output column is one block, the same at every point: its block is the array. -/
theorem whole7 (c : Dev nD) (t : Fin cfg1.N) : (iblk1 V c 7 t : S32x1.Idx → EReal) = V c main_arg10 := by
  obtain ⟨a0, a1, b0, b1, c0, c1, d0, d1, e0, e1, f0, f1, g0, g1, h0, h1, i0, i1, o0, o1⟩ := idx_facts t
  funext y
  show V c main_arg10 (((cfg1.win 7).blk t).view.emb y) = V c main_arg10 y
  refine congrArg (V c main_arg10) (funext fun a => Fin.ext ?_)
  match a with
  | ⟨0, _⟩ => show win1_7.index t (0 : Fin 2) * 32 + 1 * (y 0).val = (y 0).val; omega
  | ⟨1, _⟩ => show win1_7.index t (1 : Fin 2) * 1 + 1 * (y 1).val = (y 1).val; omega

/-- The classifier's output bias is one block, the same at every point: its block is the array. -/
theorem whole8 (c : Dev nD) (t : Fin cfg1.N) : (iblk1 V c 8 t : S1x1.Idx → EReal) = V c main_v38 := by
  obtain ⟨a0, a1, b0, b1, c0, c1, d0, d1, e0, e1, f0, f1, g0, g1, h0, h1, i0, i1, o0, o1⟩ := idx_facts t
  funext y
  show V c main_v38 (((cfg1.win 8).blk t).view.emb y) = V c main_v38 y
  refine congrArg (V c main_v38) (funext fun a => Fin.ext ?_)
  match a with
  | ⟨0, _⟩ => show win1_8.index t (0 : Fin 2) * 1 + 1 * (y 0).val = (y 0).val; omega
  | ⟨1, _⟩ => show win1_8.index t (1 : Fin 2) * 1 + 1 * (y 1).val = (y 1).val; omega

/-- What point `t` writes back is block `t` of the specification's logits of the arrays as the region finds them. -/
theorem flushed_eq (c : Dev nD) (t : Fin cfg1.N) :
    (dat1 (F := Ideal) V c).flushed 9 t = ((cfg1.win 9).blk t).view.read (Elt Ideal)
      (Sage.layer1 (N := 50000) (C := 64) (H := 64) (Hc := 32) (V c main_v35) (V c main_v23) (V c main_arg5) (V c main_arg7) (V c main_v36)
          (V c main_arg8) (V c main_v37) (V c main_arg10) (V c main_v38)) := by
  show (cfg1.win 9).cut (grid1.coords t) ((dat1 (F := Ideal) V c).after 9 t) = _
  rw [after1_9]
  unfold out1_9
  rw [View.canon_unit_zero zeroOffsets]
  simp only [View.ld_unit_zero (S := S2000x64) zeroOffsets, View.ld_unit_zero (S := S64x64) zeroOffsets, View.ld_unit_zero (S := S1x64) zeroOffsets,
    View.ld_unit_zero (S := S64x32) zeroOffsets, View.ld_unit_zero (S := S1x32) zeroOffsets, View.ld_unit_zero (S := S32x1) zeroOffsets,
    View.ld_unit_zero (S := S1x1) zeroOffsets]
  funext j
  obtain ⟨p, q, rfl⟩ : ∃ (p : Fin 2000) (q : Fin 1), j = ix2 p q := ⟨j 0, j 1, eq_ix2 j⟩
  obtain rfl : q = 0 := Subsingleton.elim _ _
  refine (pay1_apply _ _ _ _ _ _ _ _ _ p).trans ?_
  show _ = Sage.head (Sage.l2n (Sage.comb (N := 50000) (C := 64) (H := 64) (V c main_v35) (V c main_v23) (V c main_arg5) (V c main_arg7) (V c main_v36)
      ((((cfg1.win 9).blk t).view.emb (ix2 p (0 : Fin 1))) 0))) (V c main_arg8) (V c main_v37) (V c main_arg10) (V c main_v38)
  rw [whole2 V c t, whole3 V c t, whole4 V c t, whole5 V c t, whole6 V c t, whole7 V c t, whole8 V c t]
  exact congrArg (fun o => Sage.head (Sage.l2n o) (V c main_arg8) (V c main_v37) (V c main_arg10) (V c main_v38))
    (comb_rows _ _ _ _ _ _ _ p _ (fun k => rows0 V c t p k) (fun k => rows1 V c t p k))

/-- A row index is in point `t`'s block iff each coordinate is in the block's range on its axis. -/
theorem mem_blk (t : Fin cfg1.N) (i : S50000x1.Idx) :
    i ∈ ((cfg1.win 9).blk t).view.set ↔ ∀ a : Fin 2, win1_9.index t a * S2000x1.size a ≤ (i a).val ∧ (i a).val < win1_9.index t a * S2000x1.size a + S2000x1.size a := by
  show i ∈ ((View.whole main_v39).slice (win1_9.rect t)).set ↔ _
  rw [View.set_slice_whole, Rect.mem_set_unit]
  exact Iff.rfl

/-- Every one of the 50000 rows lies in the block of the point numbered by its quotient by 2000. -/
theorem covered (i : S50000x1.Idx) : ∃ t : Fin cfg1.N, (cfg1.win 9).flush t = true ∧ i ∈ ((cfg1.win 9).blk t).view.set := by
  have hi0 : (i 0).val < 50000 := (i 0).isLt
  have hi1 : (i 1).val < 1 := (i 1).isLt
  have hN : (i 0).val / 2000 < cfg1.N := by show (i 0).val / 2000 < 25; omega
  obtain ⟨t, ht⟩ : ∃ t : Fin cfg1.N, t.val = (i 0).val / 2000 := ⟨⟨_, hN⟩, rfl⟩
  obtain ⟨a0, a1, b0, b1, c0, c1, d0, d1, e0, e1, f0, f1, g0, g1, h0, h1, i0, i1, o0, o1⟩ := idx_facts t
  refine ⟨t, flush1_9 t, ?_⟩
  rw [mem_blk]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 1 ≤ (i 1).val ∧ (i 1).val < win1_9.index t (1 : Fin 2) * 1 + 1; omega

/-- The output array after the region: one logit per node, the specification's. -/
theorem final1 (c : Dev nD) :
    (dat1 (F := Ideal) V c).arrAt 9 cfg1.N
      = Sage.layer1 (N := 50000) (C := 64) (H := 64) (Hc := 32) (V c main_v35) (V c main_v23) (V c main_arg5) (V c main_arg7) (V c main_v36)
          (V c main_arg8) (V c main_v37) (V c main_arg10) (V c main_v38) :=
  (dat1 (F := Ideal) V c).arrAt_eq_of_cover 9 _ (fun t _ => flushed_eq V c t) covered

end Cert.KernelIdeal.Block1

end
-- ==== Proof.Agg.lean ====
/-
  The neighbourhood mean, as the program's host operations spell it.

  From the edge list `e` (row 0 the source node of each edge, row 1 its destination): `src` and `dst` are the two rows,
  `srcw` the sources with a negative id moved up by the number of nodes, `cnt` each node's number of incoming
  edges (ones added up at the destinations) or 1 if it has none, and `mean32` / `mean64` the features of the
  source nodes added up at the destinations and divided by `cnt`, for 32 and for 64 feature columns. The gather and the
  accumulating scatter are never opened: both programs apply the same ones to the same operands.
-/
import proofs.«178009_j15985868275842_1_alg».proof.Proof.Gen.KernelIdeal

noncomputable section

namespace Cert.KernelIdeal.Agg

open Cert.KernelIdeal Cert.KernelIdeal.Gen Idealize.ShloMosaic Idealize.SL.Sem

variable {F : FTy → Type} [FloatOps F]

/-- The source node of every edge. -/
def src (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The destination node of every edge. -/
def dst (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The sources, a negative id counted from the end. -/
def srcw (e : (⟨S2x1600000, .i32⟩ : BufTy).Contents (Elt F)) : (⟨S1600000, .i32⟩ : BufTy).Contents (Elt F) :=
  select (cmpi .slt (src (F := F) e) (broadcastInDim S1600000 ![] bcast_S_S1600000 (constantI S_ 32 0#32)))
    (addi (src (F := F) e) (broadcastInDim S1600000 ![] bcast_S_S1600000 (constantI S_ 32 50000#32))) (src (F := F) e)

/-- Each node's number of incoming edges, at least 1. -/
def cnt (e : (⟨S2x1600000, .i32⟩ : BufTy).Contents (Elt F)) : (⟨S50000x1, .f32⟩ : BufTy).Contents (Elt F) :=
  maximumf
    (Host.scatterAdd scatter_S50000x1_S1600000x1_S1600000x1_1_0_0_1
      (broadcastInDim S50000x1 ![] bcast_S_S50000x1 (constant S_ .f32 0x00000000#32))
      (broadcastInDim S1600000x1 ![0] bcast_S1600000_S1600000x1_0 (dst (F := F) e))
      (broadcastInDim S1600000x1 ![] bcast_S_S1600000x1 (constant S_ .f32 0x3F800000#32)))
    (broadcastInDim S50000x1 ![] bcast_S_S50000x1 (constant S_ .f32 0x3F800000#32))

/-- The mean over incoming edges of the source nodes' 32 features. -/
def mean32 (x : (⟨S50000x32, .f32⟩ : BufTy).Contents (Elt F)) (e : (⟨S2x1600000, .i32⟩ : BufTy).Contents (Elt F)) :
    (⟨S50000x32, .f32⟩ : BufTy).Contents (Elt F) :=
  Host.divf
    (Host.scatterAdd scatter_S50000x32_S1600000x1_S1600000x32_1_0_0_1
      (broadcastInDim S50000x32 ![] bcast_S_S50000x32 (constant S_ .f32 0x00000000#32))
      (broadcastInDim S1600000x1 ![0] bcast_S1600000_S1600000x1_0 (dst (F := F) e))
      (Host.gather gather_S50000x32_S1600000x1_S1600000x32_1_0_n_n_0_1_132 x
        (broadcastInDim S1600000x1 ![0] bcast_S1600000_S1600000x1_0 (srcw (F := F) e))))
    (broadcastInDim S50000x32 ![0, 1] bcast_S50000x1_S50000x32_0_1 (cnt (F := F) e))

/-- The mean over incoming edges of the source nodes' 64 features. -/
def mean64 (h : (⟨S50000x64, .f32⟩ : BufTy).Contents (Elt F)) (e : (⟨S2x1600000, .i32⟩ : BufTy).Contents (Elt F)) :
    (⟨S50000x64, .f32⟩ : BufTy).Contents (Elt F) :=
  Host.divf
    (Host.scatterAdd scatter_S50000x64_S1600000x1_S1600000x64_1_0_0_1
      (broadcastInDim S50000x64 ![] bcast_S_S50000x64 (constant S_ .f32 0x00000000#32))
      (broadcastInDim S1600000x1 ![0] bcast_S1600000_S1600000x1_0 (dst (F := F) e))
      (Host.gather gather_S50000x64_S1600000x1_S1600000x64_1_0_n_n_0_1_164 h
        (broadcastInDim S1600000x1 ![0] bcast_S1600000_S1600000x1_0 (srcw (F := F) e))))
    (broadcastInDim S50000x64 ![0, 1] bcast_S50000x1_S50000x64_0_1 (cnt (F := F) e))

end Cert.KernelIdeal.Agg

end
-- ==== Proof.Net.lean ====
/-
  The whole network as ONE function of the twelve argument arrays: the hidden features `hid` (layer 0 on the
  neighbourhood means of the input features), the logits `logits` (layer 1 and the classifier on the neighbourhood
  means of `hid`), and `result`, the logits as a vector. A rank-1 bias enters a layer as the one-row array
  `row64` / `row32` / `row1`, whose only row is the bias itself.
-/
import proofs.«178009_j15985868275842_1_alg».proof.Proof.Spec
import proofs.«178009_j15985868275842_1_alg».proof.Proof.Agg
import Idealize.ShloMosaic.Lib.Pipeline.Value
import Idealize.ShloMosaic.Lib.ValueLayout

noncomputable section

namespace Cert.Net

open Cert.KernelIdeal Cert.KernelIdeal.Gen Idealize.ShloMosaic Idealize.ShloMosaic.ValueIdx Idealize.SL.Sem

/-- A bias of 64 entries as a one-row array. -/
def row64 (b : (⟨S64, .f32⟩ : BufTy).Contents (Elt Ideal)) : (⟨S1x64, .f32⟩ : BufTy).Contents (Elt Ideal) := shapeCast S1x64 b shapeCasts_S64_S1x64
/-- A bias of 32 entries as a one-row array. -/
def row32 (b : (⟨S32, .f32⟩ : BufTy).Contents (Elt Ideal)) : (⟨S1x32, .f32⟩ : BufTy).Contents (Elt Ideal) := shapeCast S1x32 b shapeCasts_S32_S1x32
/-- A bias of one entry as a one-by-one array. -/
def row1 (b : (⟨S1, .f32⟩ : BufTy).Contents (Elt Ideal)) : (⟨S1x1, .f32⟩ : BufTy).Contents (Elt Ideal) := shapeCast S1x1 b shapeCasts_S1_S1x1

theorem row64_apply (b : (⟨S64, .f32⟩ : BufTy).Contents (Elt Ideal)) (j : Fin 64) : row64 b (ix2 0 j) = b (ix1 j) :=
  shapeCast_a_1a_apply b shapeCasts_S64_S1x64 0 j
theorem row32_apply (b : (⟨S32, .f32⟩ : BufTy).Contents (Elt Ideal)) (j : Fin 32) : row32 b (ix2 0 j) = b (ix1 j) :=
  shapeCast_a_1a_apply b shapeCasts_S32_S1x32 0 j
theorem row1_apply (b : (⟨S1, .f32⟩ : BufTy).Contents (Elt Ideal)) : row1 b (ix2 0 0) = b (ix1 0) :=
  shapeCast_a_1a_apply b shapeCasts_S1_S1x1 0 0

/-- The hidden features: layer 0 on the means of the input features over incoming edges. -/
def hid (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) : (⟨S50000x64, .f32⟩ : BufTy).Contents (Elt Ideal) :=
  Sage.layer0 (N := 50000) (C := 32) (H := 64) (Agg.mean32 (F := Ideal) x0 x1) x0 x2 x4 (row64 x3)

/-- One logit per node: layer 1 and the classifier on the means of the hidden features over incoming edges. -/
def logits (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) : (⟨S50000x1, .f32⟩ : BufTy).Contents (Elt Ideal) :=
  Sage.layer1 (N := 50000) (C := 64) (H := 64) (Hc := 32) (Agg.mean64 (F := Ideal) (hid x0 x1 x2 x3 x4) x1) (hid x0 x1 x2 x3 x4)
    x5 x7 (row64 x6) x8 (row32 x9) x10 (row1 x11)

/-- The logits as a vector of 50000 entries. -/
def result (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) : (⟨S50000, .f32⟩ : BufTy).Contents (Elt Ideal) :=
  shapeCast S50000 (logits x0 x1 x2 x3 x4 x5 x6 x7 x8 x9 x10 x11) shapeCasts_S50000x1_S50000

end Cert.Net

end
-- ==== Proof.KFold.lean ====
/-
  What the program's result buffer holds at the end, read back to the launch memory.

  The buffer contents at the five boundaries of the program are a fold: the first host stretch from the launch memory,
  region 0's write-backs, the second host stretch, region 1's write-backs, the closing reshape. Reading the fold at one
  buffer walks back through it: a buffer a stretch does not write keeps what it held, a stretch's result is its
  operation of its operands, a region's output array is what its blocks leave (the layer of the specification on the
  region's input arrays, by the two block modules), every other buffer passes a region unchanged. So region 0 is entered
  with the means of the input features (`Agg.mean32`) and leaves the hidden features `Net.hid`; region 1 is entered
  with the means of the hidden features (`Agg.mean64`) and leaves the logits; the result is `Net.result`.
-/
import proofs.«178009_j15985868275842_1_alg».proof.Proof.Gen.KernelIdeal.Frame
import proofs.«178009_j15985868275842_1_alg».proof.Proof.KBlock0
import proofs.«178009_j15985868275842_1_alg».proof.Proof.KBlock1
import proofs.«178009_j15985868275842_1_alg».proof.Proof.Net
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The launch contents of the twelve arguments -/

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)
abbrev A11 (c : Dev nD) := m ((c : Thread nD τ).loc main_arg11)

/-! ## Region 0's entry: the first host stretch from the launch memory -/

theorem W1_arg0 (c : Dev nD) : W1 m ρ c (Proc.devRef .tc main_arg0) = A0 m c := by
  show StableHlo.after hostOps0 (W0 m ρ c) (Proc.devRef .tc main_arg0) = _
  dsimp only [hostOps0]; after_results_simp <;> rfl
theorem W1_arg1 (c : Dev nD) : W1 m ρ c (Proc.devRef .tc main_arg1) = A1 m c := by
  show StableHlo.after hostOps0 (W0 m ρ c) (Proc.devRef .tc main_arg1) = _
  dsimp only [hostOps0]; after_results_simp <;> rfl
theorem W1_arg2 (c : Dev nD) : W1 m ρ c (Proc.devRef .tc main_arg2) = A2 m c := by
  show StableHlo.after hostOps0 (W0 m ρ c) (Proc.devRef .tc main_arg2) = _
  dsimp only [hostOps0]; after_results_simp <;> rfl
theorem W1_arg4 (c : Dev nD) : W1 m ρ c (Proc.devRef .tc main_arg4) = A4 m c := by
  show StableHlo.after hostOps0 (W0 m ρ c) (Proc.devRef .tc main_arg4) = _
  dsimp only [hostOps0]; after_results_simp <;> rfl
theorem W1_arg5 (c : Dev nD) : W1 m ρ c (Proc.devRef .tc main_arg5) = A5 m c := by
  show StableHlo.after hostOps0 (W0 m ρ c) (Proc.devRef .tc main_arg5) = _
  dsimp only [hostOps0]; after_results_simp <;> rfl
theorem W1_arg6 (c : Dev nD) : W1 m ρ c (Proc.devRef .tc main_arg6) = A6 m c := by
  show StableHlo.after hostOps0 (W0 m ρ c) (Proc.devRef .tc main_arg6) = _
  dsimp only [hostOps0]; after_results_simp <;> rfl
theorem W1_arg7 (c : Dev nD) : W1 m ρ c (Proc.devRef .tc main_arg7) = A7 m c := by
  show StableHlo.after hostOps0 (W0 m ρ c) (Proc.devRef .tc main_arg7) = _
  dsimp only [hostOps0]; after_results_simp <;> rfl
theorem W1_arg8 (c : Dev nD) : W1 m ρ c (Proc.devRef .tc main_arg8) = A8 m c := by
  show StableHlo.after hostOps0 (W0 m ρ c) (Proc.devRef .tc main_arg8) = _
  dsimp only [hostOps0]; after_results_simp <;> rfl
theorem W1_arg9 (c : Dev nD) : W1 m ρ c (Proc.devRef .tc main_arg9) = A9 m c := by
  show StableHlo.after hostOps0 (W0 m ρ c) (Proc.devRef .tc main_arg9) = _
  dsimp only [hostOps0]; after_results_simp <;> rfl
theorem W1_arg10 (c : Dev nD) : W1 m ρ c (Proc.devRef .tc main_arg10) = A10 m c := by
  show StableHlo.after hostOps0 (W0 m ρ c) (Proc.devRef .tc main_arg10) = _
  dsimp only [hostOps0]; after_results_simp <;> rfl
theorem W1_arg11 (c : Dev nD) : W1 m ρ c (Proc.devRef .tc main_arg11) = A11 m c := by
  show StableHlo.after hostOps0 (W0 m ρ c) (Proc.devRef .tc main_arg11) = _
  dsimp only [hostOps0]; after_results_simp <;> rfl

/-- The bias of layer 0 enters as a one-row array. -/
theorem W1_v22 (c : Dev nD) : W1 m ρ c (Proc.devRef .tc main_v22) = Net.row64 (A3 m c) := by
  show StableHlo.after hostOps0 (W0 m ρ c) (Proc.devRef .tc main_v22) = _
  dsimp only [hostOps0]; after_results_simp <;> rfl

/-- The first window's array is the mean of the input features over incoming edges. -/
theorem W1_v21 (c : Dev nD) : W1 m ρ c (Proc.devRef .tc main_v21) = Agg.mean32 (F := Ideal) (A0 m c) (A1 m c) := by
  show StableHlo.after hostOps0 (W0 m ρ c) (Proc.devRef .tc main_v21) = _
  dsimp only [hostOps0]; after_results_simp <;> rfl

theorem W1_v1 (c : Dev nD) : W1 m ρ c (Proc.devRef .tc main_v1) = Agg.src (F := Ideal) (A1 m c) := by
  show StableHlo.after hostOps0 (W0 m ρ c) (Proc.devRef .tc main_v1) = _
  dsimp only [hostOps0]; after_results_simp <;> rfl

theorem W1_v3 (c : Dev nD) : W1 m ρ c (Proc.devRef .tc main_v3) = Agg.dst (F := Ideal) (A1 m c) := by
  show StableHlo.after hostOps0 (W0 m ρ c) (Proc.devRef .tc main_v3) = _
  dsimp only [hostOps0]; after_results_simp <;> rfl

theorem W1_v9 (c : Dev nD) : W1 m ρ c (Proc.devRef .tc main_v9) = Agg.cnt (F := Ideal) (A1 m c) := by
  show StableHlo.after hostOps0 (W0 m ρ c) (Proc.devRef .tc main_v9) = _
  dsimp only [hostOps0]; after_results_simp <;> rfl

/-! ## Region 0's exit: its output array at the hidden features, every other buffer as entered -/

theorem W2_v23 (c : Dev nD) : W2 m ρ c (Proc.devRef .tc main_v23) = Net.hid (A0 m c) (A1 m c) (A2 m c) (A3 m c) (A4 m c) :=
  (W2_arr m ρ c 5).trans ((Block0.final0 (V1 m ρ) c).trans (by
    show Sage.layer0 (W1 m ρ c (Proc.devRef .tc main_v21)) (W1 m ρ c (Proc.devRef .tc main_arg0)) (W1 m ρ c (Proc.devRef .tc main_arg2))
      (W1 m ρ c (Proc.devRef .tc main_arg4)) (W1 m ρ c (Proc.devRef .tc main_v22)) = _
    rw [W1_v21, W1_arg0, W1_arg2, W1_arg4, W1_v22]; rfl))

theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)
theorem W2_v9 (c : Dev nD) : W2 m ρ c (Proc.devRef .tc main_v9) = W1 m ρ c (Proc.devRef .tc main_v9) :=
  W2_of_ne m ρ c main_v9 (by decide)
theorem W2_arg5 (c : Dev nD) : W2 m ρ c (Proc.devRef .tc main_arg5) = A5 m c :=
  (W2_of_ne m ρ c main_arg5 (by decide)).trans (W1_arg5 m ρ c)
theorem W2_arg6 (c : Dev nD) : W2 m ρ c (Proc.devRef .tc main_arg6) = A6 m c :=
  (W2_of_ne m ρ c main_arg6 (by decide)).trans (W1_arg6 m ρ c)
theorem W2_arg7 (c : Dev nD) : W2 m ρ c (Proc.devRef .tc main_arg7) = A7 m c :=
  (W2_of_ne m ρ c main_arg7 (by decide)).trans (W1_arg7 m ρ c)
theorem W2_arg8 (c : Dev nD) : W2 m ρ c (Proc.devRef .tc main_arg8) = A8 m c :=
  (W2_of_ne m ρ c main_arg8 (by decide)).trans (W1_arg8 m ρ c)
theorem W2_arg9 (c : Dev nD) : W2 m ρ c (Proc.devRef .tc main_arg9) = A9 m c :=
  (W2_of_ne m ρ c main_arg9 (by decide)).trans (W1_arg9 m ρ c)
theorem W2_arg10 (c : Dev nD) : W2 m ρ c (Proc.devRef .tc main_arg10) = A10 m c :=
  (W2_of_ne m ρ c main_arg10 (by decide)).trans (W1_arg10 m ρ c)
theorem W2_arg11 (c : Dev nD) : W2 m ρ c (Proc.devRef .tc main_arg11) = A11 m c :=
  (W2_of_ne m ρ c main_arg11 (by decide)).trans (W1_arg11 m ρ c)

/-! ## Region 1's entry: the second host stretch -/

/-- The first window's array is the mean of the hidden features over incoming edges. -/
theorem W3_v35 (c : Dev nD) : W3 m ρ c (Proc.devRef .tc main_v35)
    = Agg.mean64 (F := Ideal) (Net.hid (A0 m c) (A1 m c) (A2 m c) (A3 m c) (A4 m c)) (A1 m c) := by
  show StableHlo.after hostOps1 (W2 m ρ c) (Proc.devRef .tc main_v35) = _
  dsimp only [hostOps1]; after_results_simp
  rw [W2_v23, W2_v1, W2_v3, W2_v9, W1_v1, W1_v3, W1_v9]; rfl

theorem W3_v23 (c : Dev nD) : W3 m ρ c (Proc.devRef .tc main_v23) = Net.hid (A0 m c) (A1 m c) (A2 m c) (A3 m c) (A4 m c) := by
  show StableHlo.after hostOps1 (W2 m ρ c) (Proc.devRef .tc main_v23) = _
  dsimp only [hostOps1]; after_results_simp; exact W2_v23 m ρ c

theorem W3_arg5 (c : Dev nD) : W3 m ρ c (Proc.devRef .tc main_arg5) = A5 m c := by
  show StableHlo.after hostOps1 (W2 m ρ c) (Proc.devRef .tc main_arg5) = _
  dsimp only [hostOps1]; after_results_simp; exact W2_arg5 m ρ c
theorem W3_arg7 (c : Dev nD) : W3 m ρ c (Proc.devRef .tc main_arg7) = A7 m c := by
  show StableHlo.after hostOps1 (W2 m ρ c) (Proc.devRef .tc main_arg7) = _
  dsimp only [hostOps1]; after_results_simp; exact W2_arg7 m ρ c
theorem W3_arg8 (c : Dev nD) : W3 m ρ c (Proc.devRef .tc main_arg8) = A8 m c := by
  show StableHlo.after hostOps1 (W2 m ρ c) (Proc.devRef .tc main_arg8) = _
  dsimp only [hostOps1]; after_results_simp; exact W2_arg8 m ρ c
theorem W3_arg10 (c : Dev nD) : W3 m ρ c (Proc.devRef .tc main_arg10) = A10 m c := by
  show StableHlo.after hostOps1 (W2 m ρ c) (Proc.devRef .tc main_arg10) = _
  dsimp only [hostOps1]; after_results_simp; exact W2_arg10 m ρ c

theorem W3_v36 (c : Dev nD) : W3 m ρ c (Proc.devRef .tc main_v36) = Net.row64 (A6 m c) := by
  show StableHlo.after hostOps1 (W2 m ρ c) (Proc.devRef .tc main_v36) = _
  dsimp only [hostOps1]; after_results_simp; rw [W2_arg6]; rfl
theorem W3_v37 (c : Dev nD) : W3 m ρ c (Proc.devRef .tc main_v37) = Net.row32 (A9 m c) := by
  show StableHlo.after hostOps1 (W2 m ρ c) (Proc.devRef .tc main_v37) = _
  dsimp only [hostOps1]; after_results_simp; rw [W2_arg9]; rfl
theorem W3_v38 (c : Dev nD) : W3 m ρ c (Proc.devRef .tc main_v38) = Net.row1 (A11 m c) := by
  show StableHlo.after hostOps1 (W2 m ρ c) (Proc.devRef .tc main_v38) = _
  dsimp only [hostOps1]; after_results_simp; rw [W2_arg11]; rfl

/-! ## Region 1's exit and the closing reshape -/

theorem W4_v39 (c : Dev nD) : W4 m ρ c (Proc.devRef .tc main_v39) = Net.logits (A0 m c) (A1 m c) (A2 m c) (A3 m c) (A4 m c) (A5 m c) (A6 m c) (A7 m c) (A8 m c) (A9 m c) (A10 m c) (A11 m c) :=
  (W4_arr m ρ c 9).trans ((Block1.final1 (V3 m ρ) c).trans (by
    show Sage.layer1 (W3 m ρ c (Proc.devRef .tc main_v35)) (W3 m ρ c (Proc.devRef .tc main_v23)) (W3 m ρ c (Proc.devRef .tc main_arg5))
      (W3 m ρ c (Proc.devRef .tc main_arg7)) (W3 m ρ c (Proc.devRef .tc main_v36)) (W3 m ρ c (Proc.devRef .tc main_arg8))
      (W3 m ρ c (Proc.devRef .tc main_v37)) (W3 m ρ c (Proc.devRef .tc main_arg10)) (W3 m ρ c (Proc.devRef .tc main_v38)) = _
    rw [W3_v35, W3_v23, W3_arg5, W3_arg7, W3_v36, W3_arg8, W3_v37, W3_arg10, W3_v38]; rfl))

/-- The result buffer at the last boundary: the logits of the network on the launch arguments. -/
theorem result_eq (c : Dev nD) : W5 m ρ c (Proc.devRef .tc main_v40) = Net.result (A0 m c) (A1 m c) (A2 m c) (A3 m c) (A4 m c) (A5 m c) (A6 m c) (A7 m c) (A8 m c) (A9 m c) (A10 m c) (A11 m c) := by
  show StableHlo.after hostOps2 (W4 m ρ c) (Proc.devRef .tc main_v40) = _
  dsimp only [hostOps2]; after_results_simp; rw [W4_v39]; rfl

end Cert.KernelIdeal.Fold

end
-- ==== Proof.RefLayers.lean ====
/-
  The reference, read one operation at a time, is the specification's two layers.

  Each stage of the reference at an index is its operation of the operands at an index: a contraction is the sum over
  the contracted axis of the products, the row sum of squares starts from zero (the neutral element, so it is the sum), a
  bias of 64 (32, 1) entries broadcast over the rows is read at its column. Put together, row `r` of the first layer is the
  combination  mean·Wl + x·Wr + b  divided by the larger of its Euclidean norm and ε with negatives cut to zero
  (`layer0_eq`), and the logit of row `r` is the classifier on the second layer's normalised combination
  (`layer1_eq`). The two neighbourhood means and, in layer 1, the hidden features stay opaque: they are only read at an
  index. A bias enters as ANY one-row array whose row is the bias.
-/
import proofs.«178009_j15985868275842_1_alg».proof.Proof.Gen.ReferenceIdeal.Read
import proofs.«178009_j15985868275842_1_alg».proof.Proof.Spec
import Idealize.ShloMosaic.Lib.ValueIdx
import Idealize.ShloMosaic.Lib.ValueLayout
import Idealize.ShloMosaic.PureOps.Ideal.Laws

set_option maxRecDepth 16384

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx Idealize.SL.Sem

/-! ## Layer 0 -/

/-! The index maps of the two inner products, of the bias broadcast, of the row sum and of the
    norm's broadcast, each at an index given by its coordinates. -/

theorem lidx22 (r : Fin 50000) (j : Fin 64) (k : Fin 32) : lidx_main_v22 (ix2 r j) k = ix2 r k :=
  funext fun a => Fin.ext (by match a with | ⟨0, _⟩ => rfl | ⟨1, _⟩ => rfl)
theorem ridx22 (r : Fin 50000) (j : Fin 64) (k : Fin 32) : ridx_main_v22 (ix2 r j) k = ix2 k j :=
  funext fun a => Fin.ext (by match a with | ⟨0, _⟩ => rfl | ⟨1, _⟩ => rfl)
theorem lidx23 (r : Fin 50000) (j : Fin 64) (k : Fin 32) : lidx_main_v23 (ix2 r j) k = ix2 r k :=
  funext fun a => Fin.ext (by match a with | ⟨0, _⟩ => rfl | ⟨1, _⟩ => rfl)
theorem ridx23 (r : Fin 50000) (j : Fin 64) (k : Fin 32) : ridx_main_v23 (ix2 r j) k = ix2 k j :=
  funext fun a => Fin.ext (by match a with | ⟨0, _⟩ => rfl | ⟨1, _⟩ => rfl)
theorem idx26 (r : Fin 50000) (j : Fin 64) : idx_main_v26 (ix2 r j) = ix2 0 j :=
  funext fun a => Fin.ext (by match a with | ⟨0, _⟩ => rfl | ⟨1, _⟩ => rfl)
theorem idx25 (j : Fin 64) : idx_main_v25 (ix2 (0 : Fin 1) j) = ix1 j :=
  funext fun a => Fin.ext (by match a with | ⟨0, _⟩ => rfl)
theorem idx31 (r : Fin 50000) (j : Fin 64) : idx_main_v31 (ix2 r j) = ix2 r (0 : Fin 1) :=
  funext fun a => Fin.ext (by match a with | ⟨0, _⟩ => rfl | ⟨1, _⟩ => rfl)
theorem idx_c0v2 (r : Fin 50000) : idx_main_call0_v2 (ix2 r (0 : Fin 1)) = ix1 r :=
  funext fun a => Fin.ext (by match a with | ⟨0, _⟩ => rfl)
theorem idx_c0v1 (r : Fin 50000) (k : Fin 64) : idx_main_call0_v1 (ix1 r) k = ix2 r k :=
  funext fun a => Fin.ext (by match a with | ⟨0, _⟩ => rfl | ⟨1, _⟩ => rfl)

/-- The pre-normalisation value of layer 0 at row `r`, column `j` is the SAGE combination: the two
    inner products are read term by term, and the bias is read through its two broadcasts. -/
theorem v27_apply_ix (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal))
    (brow : Sage.Arr 1 64) (hb : ∀ j : Fin 64, brow (ix2 0 j) = x3 (ix1 j)) (r : Fin 50000) (j : Fin 64) :
    val_main_v27 (F := Ideal) x0 x1 x2 x3 x4 (ix2 r j)
      = Sage.comb (N := 50000) (C := 32) (H := 64) (val_main_v21 (F := Ideal) x0 x1) x0 x2 x4 brow r j := by
  rw [val_main_v27_apply, val_main_v24_apply, val_main_v22_apply, val_main_v23_apply, val_main_v26_apply, val_main_v25_apply]
  generalize val_main_v21 (F := Ideal) x0 x1 = y
  simp only [lidx22, ridx22, lidx23, ridx23, idx26, idx25, Ideal.addf_def]
  unfold Sage.comb
  rw [hb]

/-- The divisor of row `r`: the larger of the root of the row's sum of squares and ε. The row sum
    starts from zero, which is the neutral element of the addition. -/
theorem v30_apply_ix (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal))
    (brow : Sage.Arr 1 64) (hb : ∀ j : Fin 64, brow (ix2 0 j) = x3 (ix1 j)) (r : Fin 50000) :
    val_main_v30 (F := Ideal) x0 x1 x2 x3 x4 (ix2 r (0 : Fin 1))
      = max (Ideal.sqrt (∑ k : Fin 64,
            Sage.comb (N := 50000) (C := 32) (H := 64) (val_main_v21 (F := Ideal) x0 x1) x0 x2 x4 brow r k
          * Sage.comb (N := 50000) (C := 32) (H := 64) (val_main_v21 (F := Ideal) x0 x1) x0 x2 x4 brow r k)) Sage.eps := by
  rw [val_main_v30_apply, val_main_v28_apply, val_main_call0_v2_apply, idx_c0v2, val_main_call0_v1_apply,
    val_main_v29_apply, val_main_cst_4_apply, val_main_call0_cst_apply]
  have hs : ∀ k : Fin 64, val_main_call0_v0 (F := Ideal) x0 x1 x2 x3 x4 (idx_main_call0_v1 (ix1 r) k)
      = Sage.comb (N := 50000) (C := 32) (H := 64) (val_main_v21 (F := Ideal) x0 x1) x0 x2 x4 brow r k
        * Sage.comb (N := 50000) (C := 32) (H := 64) (val_main_v21 (F := Ideal) x0 x1) x0 x2 x4 brow r k := by
    intro k
    rw [idx_c0v1, val_main_call0_v0_apply, v27_apply_ix x0 x1 x2 x3 x4 brow hb]
    rfl
  rw [Finset.sum_congr rfl (fun k _ => hs k)]
  generalize val_main_v21 (F := Ideal) x0 x1 = y
  rw [Ideal.ofBits_def, Ideal.ofBits_zero_f32, zero_add]
  rfl

/-- Layer 0 of the reference is the specification's layer 0: the normalised combination, then the
    maximum with zero. -/
theorem layer0_eq (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal))
    (brow : Sage.Arr 1 64) (hb : ∀ j : Fin 64, brow (ix2 0 j) = x3 (ix1 j)) :
    val_main_v33 (F := Ideal) x0 x1 x2 x3 x4
      = Sage.layer0 (N := 50000) (C := 32) (H := 64) (val_main_v21 (F := Ideal) x0 x1) x0 x2 x4 brow := by
  funext i
  obtain ⟨r, j, rfl⟩ : ∃ (r : Fin 50000) (j : Fin 64), i = ix2 r j := ⟨i 0, i 1, eq_ix2 i⟩
  rw [val_main_v33_apply, val_main_v32_apply, val_main_v31_apply, idx31, v30_apply_ix x0 x1 x2 x3 x4 brow hb,
    v27_apply_ix x0 x1 x2 x3 x4 brow hb, val_main_call1_v0_apply, val_main_call1_cst_apply]
  generalize val_main_v21 (F := Ideal) x0 x1 = y
  rfl

/-! ## Layer 1 and the classifier -/

/-! The index maps of layer 1's inner products, bias broadcast, row sum and norm broadcast, then those
    of the classifier's two inner products and two bias broadcasts. -/

theorem lidx52 (r : Fin 50000) (j k : Fin 64) : lidx_main_v52 (ix2 r j) k = ix2 r k :=
  funext fun a => Fin.ext (by match a with | ⟨0, _⟩ => rfl | ⟨1, _⟩ => rfl)
theorem ridx52 (r : Fin 50000) (j k : Fin 64) : ridx_main_v52 (ix2 r j) k = ix2 k j :=
  funext fun a => Fin.ext (by match a with | ⟨0, _⟩ => rfl | ⟨1, _⟩ => rfl)
theorem lidx53 (r : Fin 50000) (j k : Fin 64) : lidx_main_v53 (ix2 r j) k = ix2 r k :=
  funext fun a => Fin.ext (by match a with | ⟨0, _⟩ => rfl | ⟨1, _⟩ => rfl)
theorem ridx53 (r : Fin 50000) (j k : Fin 64) : ridx_main_v53 (ix2 r j) k = ix2 k j :=
  funext fun a => Fin.ext (by match a with | ⟨0, _⟩ => rfl | ⟨1, _⟩ => rfl)
theorem idx56 (r : Fin 50000) (j : Fin 64) : idx_main_v56 (ix2 r j) = ix2 0 j :=
  funext fun a => Fin.ext (by match a with | ⟨0, _⟩ => rfl | ⟨1, _⟩ => rfl)
theorem idx55 (j : Fin 64) : idx_main_v55 (ix2 (0 : Fin 1) j) = ix1 j :=
  funext fun a => Fin.ext (by match a with | ⟨0, _⟩ => rfl)
theorem idx61 (r : Fin 50000) (j : Fin 64) : idx_main_v61 (ix2 r j) = ix2 r (0 : Fin 1) :=
  funext fun a => Fin.ext (by match a with | ⟨0, _⟩ => rfl | ⟨1, _⟩ => rfl)
theorem idx_c2v2 (r : Fin 50000) : idx_main_call2_v2 (ix2 r (0 : Fin 1)) = ix1 r :=
  funext fun a => Fin.ext (by match a with | ⟨0, _⟩ => rfl)
theorem idx_c2v1 (r : Fin 50000) (k : Fin 64) : idx_main_call2_v1 (ix1 r) k = ix2 r k :=
  funext fun a => Fin.ext (by match a with | ⟨0, _⟩ => rfl | ⟨1, _⟩ => rfl)
theorem lidx63 (r : Fin 50000) (j : Fin 32) (k : Fin 64) : lidx_main_v63 (ix2 r j) k = ix2 r k :=
  funext fun a => Fin.ext (by match a with | ⟨0, _⟩ => rfl | ⟨1, _⟩ => rfl)
theorem ridx63 (r : Fin 50000) (j : Fin 32) (k : Fin 64) : ridx_main_v63 (ix2 r j) k = ix2 k j :=
  funext fun a => Fin.ext (by match a with | ⟨0, _⟩ => rfl | ⟨1, _⟩ => rfl)
theorem idx65 (r : Fin 50000) (j : Fin 32) : idx_main_v65 (ix2 r j) = ix2 0 j :=
  funext fun a => Fin.ext (by match a with | ⟨0, _⟩ => rfl | ⟨1, _⟩ => rfl)
theorem idx64 (j : Fin 32) : idx_main_v64 (ix2 (0 : Fin 1) j) = ix1 j :=
  funext fun a => Fin.ext (by match a with | ⟨0, _⟩ => rfl)
theorem lidx68 (r : Fin 50000) (k : Fin 32) : lidx_main_v68 (ix2 r (0 : Fin 1)) k = ix2 r k :=
  funext fun a => Fin.ext (by match a with | ⟨0, _⟩ => rfl | ⟨1, _⟩ => rfl)
theorem ridx68 (r : Fin 50000) (k : Fin 32) : ridx_main_v68 (ix2 r (0 : Fin 1)) k = ix2 k (0 : Fin 1) :=
  funext fun a => Fin.ext (by match a with | ⟨0, _⟩ => rfl | ⟨1, _⟩ => rfl)
theorem idx70 (r : Fin 50000) : idx_main_v70 (ix2 r (0 : Fin 1)) = ix2 (0 : Fin 1) (0 : Fin 1) :=
  funext fun a => Fin.ext (by match a with | ⟨0, _⟩ => rfl | ⟨1, _⟩ => rfl)
theorem idx69 : idx_main_v69 (ix2 (0 : Fin 1) (0 : Fin 1)) = ix1 (0 : Fin 1) :=
  funext fun a => Fin.ext (by match a with | ⟨0, _⟩ => rfl)

/-- The pre-normalisation value of layer 1 at row `r`, column `j` is the SAGE combination of the
    second neighbourhood mean and the hidden features. -/
theorem v57_apply_ix (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (b1row : Sage.Arr 1 64) (hb1 : ∀ j : Fin 64, b1row (ix2 0 j) = x6 (ix1 j)) (r : Fin 50000) (j : Fin 64) :
    val_main_v57 (F := Ideal) x0 x1 x2 x3 x4 x5 x6 x7 (ix2 r j) = Sage.comb (N := 50000) (C := 64) (H := 64) (val_main_v51 (F := Ideal) x0 x1 x2 x3 x4) (val_main_v33 (F := Ideal) x0 x1 x2 x3 x4) x5 x7 b1row r j := by
  rw [val_main_v57_apply, val_main_v54_apply, val_main_v52_apply, val_main_v53_apply, val_main_v56_apply, val_main_v55_apply]
  generalize val_main_v51 (F := Ideal) x0 x1 x2 x3 x4 = a
  generalize val_main_v33 (F := Ideal) x0 x1 x2 x3 x4 = h
  simp only [lidx52, ridx52, lidx53, ridx53, idx56, idx55, Ideal.addf_def]
  unfold Sage.comb
  rw [hb1]

/-- The divisor of row `r` in layer 1: the larger of the root of the row's sum of squares and ε. -/
theorem v60_apply_ix (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (b1row : Sage.Arr 1 64) (hb1 : ∀ j : Fin 64, b1row (ix2 0 j) = x6 (ix1 j)) (r : Fin 50000) :
    val_main_v60 (F := Ideal) x0 x1 x2 x3 x4 x5 x6 x7 (ix2 r (0 : Fin 1))
      = max (Ideal.sqrt (∑ k : Fin 64, Sage.comb (N := 50000) (C := 64) (H := 64) (val_main_v51 (F := Ideal) x0 x1 x2 x3 x4) (val_main_v33 (F := Ideal) x0 x1 x2 x3 x4) x5 x7 b1row r k * Sage.comb (N := 50000) (C := 64) (H := 64) (val_main_v51 (F := Ideal) x0 x1 x2 x3 x4) (val_main_v33 (F := Ideal) x0 x1 x2 x3 x4) x5 x7 b1row r k)) Sage.eps := by
  rw [val_main_v60_apply, val_main_v58_apply, val_main_call2_v2_apply, idx_c2v2, val_main_call2_v1_apply,
    val_main_v59_apply, val_main_cst_11_apply, val_main_call2_cst_apply]
  have hs : ∀ k : Fin 64, val_main_call2_v0 (F := Ideal) x0 x1 x2 x3 x4 x5 x6 x7 (idx_main_call2_v1 (ix1 r) k)
      = Sage.comb (N := 50000) (C := 64) (H := 64) (val_main_v51 (F := Ideal) x0 x1 x2 x3 x4) (val_main_v33 (F := Ideal) x0 x1 x2 x3 x4) x5 x7 b1row r k * Sage.comb (N := 50000) (C := 64) (H := 64) (val_main_v51 (F := Ideal) x0 x1 x2 x3 x4) (val_main_v33 (F := Ideal) x0 x1 x2 x3 x4) x5 x7 b1row r k := by
    intro k
    rw [idx_c2v1, val_main_call2_v0_apply, v57_apply_ix x0 x1 x2 x3 x4 x5 x6 x7 b1row hb1]
    rfl
  rw [Finset.sum_congr rfl (fun k _ => hs k)]
  generalize val_main_v51 (F := Ideal) x0 x1 x2 x3 x4 = a
  generalize val_main_v33 (F := Ideal) x0 x1 x2 x3 x4 = h
  rw [Ideal.ofBits_def, Ideal.ofBits_zero_f32, zero_add]
  rfl

/-- The normalised row of layer 1, entry by entry. -/
theorem v62_apply_ix (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (b1row : Sage.Arr 1 64) (hb1 : ∀ j : Fin 64, b1row (ix2 0 j) = x6 (ix1 j)) (r : Fin 50000) (k : Fin 64) :
    val_main_v62 (F := Ideal) x0 x1 x2 x3 x4 x5 x6 x7 (ix2 r k) = Sage.l2n (Sage.comb (N := 50000) (C := 64) (H := 64) (val_main_v51 (F := Ideal) x0 x1 x2 x3 x4) (val_main_v33 (F := Ideal) x0 x1 x2 x3 x4) x5 x7 b1row r) k := by
  rw [val_main_v62_apply, val_main_v61_apply, idx61, v60_apply_ix x0 x1 x2 x3 x4 x5 x6 x7 b1row hb1,
    v57_apply_ix x0 x1 x2 x3 x4 x5 x6 x7 b1row hb1]
  generalize val_main_v51 (F := Ideal) x0 x1 x2 x3 x4 = a
  generalize val_main_v33 (F := Ideal) x0 x1 x2 x3 x4 = h
  rfl

/-- The classifier's hidden layer on row `r`, entry `k`: an inner product of the normalised row
    with a column of the first weight matrix, plus the bias, then the maximum with zero. -/
theorem v67_apply_ix (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x32, .f32⟩ : BufTy).Contents (Elt Ideal)) (x9 : (⟨S32, .f32⟩ : BufTy).Contents (Elt Ideal))
    (b1row : Sage.Arr 1 64) (hb1 : ∀ j : Fin 64, b1row (ix2 0 j) = x6 (ix1 j))
    (bc1row : Sage.Arr 1 32) (hbc1 : ∀ j : Fin 32, bc1row (ix2 0 j) = x9 (ix1 j)) (r : Fin 50000) (k : Fin 32) :
    val_main_v67 (F := Ideal) x0 x1 x2 x3 x4 x5 x6 x7 x8 x9 (ix2 r k)
      = max ((∑ q : Fin 64, Sage.l2n (Sage.comb (N := 50000) (C := 64) (H := 64) (val_main_v51 (F := Ideal) x0 x1 x2 x3 x4) (val_main_v33 (F := Ideal) x0 x1 x2 x3 x4) x5 x7 b1row r) q * x8 (ix2 q k)) + bc1row (ix2 0 k)) Sage.zero := by
  rw [val_main_v67_apply, val_main_v66_apply, val_main_v63_apply, val_main_v65_apply, idx65, val_main_v64_apply, idx64,
    val_main_call3_v0_apply, val_main_call3_cst_apply]
  have hs : ∀ q : Fin 64, val_main_v62 (F := Ideal) x0 x1 x2 x3 x4 x5 x6 x7 (lidx_main_v63 (ix2 r k) q) * x8 (ridx_main_v63 (ix2 r k) q)
      = Sage.l2n (Sage.comb (N := 50000) (C := 64) (H := 64) (val_main_v51 (F := Ideal) x0 x1 x2 x3 x4) (val_main_v33 (F := Ideal) x0 x1 x2 x3 x4) x5 x7 b1row r) q * x8 (ix2 q k) := by
    intro q
    rw [lidx63, ridx63, v62_apply_ix x0 x1 x2 x3 x4 x5 x6 x7 b1row hb1]
  rw [Finset.sum_congr rfl (fun q _ => hs q), ← hbc1]
  generalize val_main_v51 (F := Ideal) x0 x1 x2 x3 x4 = a
  generalize val_main_v33 (F := Ideal) x0 x1 x2 x3 x4 = h
  rfl

/-- Layer 1 with the classifier: the logit of row `r` is the second inner product over the hidden
    layer plus the last bias; the one column index of the result is `0`. -/
theorem layer1_eq (x0 : (⟨S50000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal))
    (b1row : Sage.Arr 1 64) (hb1 : ∀ j : Fin 64, b1row (ix2 0 j) = x6 (ix1 j))
    (bc1row : Sage.Arr 1 32) (hbc1 : ∀ j : Fin 32, bc1row (ix2 0 j) = x9 (ix1 j))
    (bc2row : Sage.Arr 1 1) (hbc2 : bc2row (ix2 0 0) = x11 (ix1 0)) :
    val_main_v71 (F := Ideal) x0 x1 x2 x3 x4 x5 x6 x7 x8 x9 x10 x11
      = Sage.layer1 (N := 50000) (C := 64) (H := 64) (Hc := 32) (val_main_v51 (F := Ideal) x0 x1 x2 x3 x4) (val_main_v33 (F := Ideal) x0 x1 x2 x3 x4)
          x5 x7 b1row x8 bc1row x10 bc2row := by
  funext i
  obtain ⟨r, j, rfl⟩ : ∃ (r : Fin 50000) (j : Fin 1), i = ix2 r j := ⟨i 0, i 1, eq_ix2 i⟩
  obtain rfl : j = 0 := Fin.fin_one_eq_zero j
  rw [val_main_v71_apply, val_main_v68_apply, val_main_v70_apply, idx70, val_main_v69_apply, idx69]
  have hs : ∀ k : Fin 32, val_main_v67 (F := Ideal) x0 x1 x2 x3 x4 x5 x6 x7 x8 x9 (lidx_main_v68 (ix2 r (0 : Fin 1)) k) * x10 (ridx_main_v68 (ix2 r (0 : Fin 1)) k)
      = max ((∑ q : Fin 64, Sage.l2n (Sage.comb (N := 50000) (C := 64) (H := 64) (val_main_v51 (F := Ideal) x0 x1 x2 x3 x4) (val_main_v33 (F := Ideal) x0 x1 x2 x3 x4) x5 x7 b1row r) q * x8 (ix2 q k)) + bc1row (ix2 0 k)) Sage.zero * x10 (ix2 k (0 : Fin 1)) := by
    intro k
    rw [lidx68, ridx68, v67_apply_ix x0 x1 x2 x3 x4 x5 x6 x7 x8 x9 b1row hb1 bc1row hbc1]
  rw [Finset.sum_congr rfl (fun k _ => hs k), ← hbc2]
  generalize val_main_v51 (F := Ideal) x0 x1 x2 x3 x4 = a
  generalize val_main_v33 (F := Ideal) x0 x1 x2 x3 x4 = h
  rfl

end Cert.ReferenceIdeal.Layers

end
-- ==== Proof.RefChains.lean ====
/-
  The reference gathers the source nodes' features, adds them up at the destinations and divides by the number of
  incoming edges with the very operations the kernel's program applies on its host side, to the same operands: its two
  neighbourhood means are `Agg.mean32` of the input features and `Agg.mean64` of its own hidden features. Nothing is
  computed: the two texts are one term.
-/
import proofs.«178009_j15985868275842_1_alg».proof.Proof.Gen.ReferenceIdeal.Read
import proofs.«178009_j15985868275842_1_alg».proof.Proof.Agg

set_option maxRecDepth 16384

noncomputable section

namespace Cert.ReferenceIdeal.Chains

open Cert.ReferenceIdeal Cert.ReferenceIdeal.Gen Cert.ReferenceIdeal.Read
open Idealize.ShloMosaic Idealize.SL.Sem

variable {F : FTy → Type} [FloatOps F]

/-- The reference's first mean is the mean of the input features over incoming edges. -/
theorem mean32_eq (x0 : (⟨S50000x32, .f32⟩ : BufTy).Contents (Elt F)) (x1 : (⟨S2x1600000, .i32⟩ : BufTy).Contents (Elt F)) :
    val_main_v21 (F := F) x0 x1 = Cert.KernelIdeal.Agg.mean32 (F := F) x0 x1 := by
  rfl

/-- The reference's second mean is the same mean of ITS hidden features, whatever they are. -/
theorem mean64_eq (x0 : (⟨S50000x32, .f32⟩ : BufTy).Contents (Elt F)) (x1 : (⟨S2x1600000, .i32⟩ : BufTy).Contents (Elt F)) (x2 : (⟨S32x64, .f32⟩ : BufTy).Contents (Elt F)) (x3 : (⟨S64, .f32⟩ : BufTy).Contents (Elt F)) (x4 : (⟨S32x64, .f32⟩ : BufTy).Contents (Elt F)) :
    val_main_v51 (F := F) x0 x1 x2 x3 x4 = Cert.KernelIdeal.Agg.mean64 (F := F) (val_main_v33 (F := F) x0 x1 x2 x3 x4) x1 := by
  unfold val_main_v51 val_main_v43 val_main_v40
  generalize val_main_v33 (F := F) x0 x1 x2 x3 x4 = h
  rfl

end Cert.ReferenceIdeal.Chains

end
-- ==== Proof.lean ====
/-
  Two GraphSAGE layers and a two-layer classifier over a graph of 50000 nodes and 1600000 edges, as a kernel program and
  as its plain reference, equal over the extended reals.

  The kernel program computes each node's neighbourhood mean on its host side (gather the source nodes' rows, add them up
  at the destinations, divide by the number of incoming edges, at least 1) and runs the dense part in two gridded regions
  of 25 blocks of 2000 nodes: region 0 forms  mean·Wl0 + x·Wr0 + b0, divides each row by the larger of its Euclidean
  norm and ε, and cuts negatives to zero; region 1 does the same combination and normalisation with the layer-1 weights on
  the means of those hidden features and applies the classifier  max(h·Wc1 + bc1, 0)·Wc2 + bc2. The reference does the
  same on whole arrays. Over the extended reals rounding to bf16 is the identity, a matrix product into a zero
  accumulator is the host's contraction, and a lane sum is the host's row sum (zero plus the sum), so both programs end
  at ONE function of the twelve arguments, `Net.result`: the kernel's by reading its final contents back through the
  regions (`Fold.result_eq`), the reference's by reading its operations at an index (`Layers.layer0_eq`,
  `Layers.layer1_eq`) with its two neighbourhood means the kernel's own host text (`Chains.mean32_eq`, `mean64_eq`).
  No law used needs finiteness: the precondition is never opened. The idealisation rewrote nothing, so `preserves` is
  trivial; the three frames are the programs' runs with the values forgotten.
-/
import proofs.«178009_j15985868275842_1_alg».proof.Defs
import proofs.«178009_j15985868275842_1_alg».proof.Proof.Gen.Kernel
import proofs.«178009_j15985868275842_1_alg».proof.Proof.Gen.Kernel.Skeleton
import proofs.«178009_j15985868275842_1_alg».proof.Proof.Gen.Kernel.Launch
import proofs.«178009_j15985868275842_1_alg».proof.Proof.Gen.Kernel.Points
import proofs.«178009_j15985868275842_1_alg».proof.Proof.Gen.Kernel.Frame
import proofs.«178009_j15985868275842_1_alg».proof.Proof.Gen.KernelIdeal
import proofs.«178009_j15985868275842_1_alg».proof.Proof.Gen.KernelIdeal.Skeleton
import proofs.«178009_j15985868275842_1_alg».proof.Proof.Gen.KernelIdeal.Launch
import proofs.«178009_j15985868275842_1_alg».proof.Proof.Gen.KernelIdeal.Points
import proofs.«178009_j15985868275842_1_alg».proof.Proof.Gen.KernelIdeal.Frame
import proofs.«178009_j15985868275842_1_alg».proof.Proof.Gen.ReferenceIdeal
import proofs.«178009_j15985868275842_1_alg».proof.Proof.Gen.ReferenceIdeal.Run
import proofs.«178009_j15985868275842_1_alg».proof.Proof.Gen.ReferenceIdeal.Read
import proofs.«178009_j15985868275842_1_alg».proof.Proof.Gen.Pre_finite_inputs
import proofs.«178009_j15985868275842_1_alg».proof.Proof.KRun
import proofs.«178009_j15985868275842_1_alg».proof.Proof.KFold
import proofs.«178009_j15985868275842_1_alg».proof.Proof.RefLayers
import proofs.«178009_j15985868275842_1_alg».proof.Proof.RefChains
import proofs.«178009_j15985868275842_1_alg».proof.Proof.Net
import Idealize.ShloMosaic.Adequacy
import Idealize.ShloMosaic.Init

set_option maxRecDepth 16384

noncomputable section

namespace Cert.Proof

open Idealize.ShloMosaic Idealize.ShloMosaic.TcCoe Idealize.SL.Sem

/-- The reference's result, one operation at a time, is the network's function of its arguments: the last two
    stages are the classifier layer on the second neighbourhood mean, that mean is the kernel's host text on the hidden
    features, the hidden features are layer 0 on the first mean, and that mean is the kernel's host text on the input. -/
theorem ref_result (x0 : (⟨Cert.ReferenceIdeal.S50000x32, .f32⟩ : BufTy).Contents (Elt Ideal)) (x1 : (⟨Cert.ReferenceIdeal.S2x1600000, .i32⟩ : BufTy).Contents (Elt Ideal)) (x2 : (⟨Cert.ReferenceIdeal.S32x64, .f32⟩ : BufTy).Contents (Elt Ideal)) (x3 : (⟨Cert.ReferenceIdeal.S64, .f32⟩ : BufTy).Contents (Elt Ideal)) (x4 : (⟨Cert.ReferenceIdeal.S32x64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (x8 : (⟨Cert.ReferenceIdeal.S64x32, .f32⟩ : BufTy).Contents (Elt Ideal)) (x9 : (⟨Cert.ReferenceIdeal.S32, .f32⟩ : BufTy).Contents (Elt Ideal)) (x10 : (⟨Cert.ReferenceIdeal.S32x1, .f32⟩ : BufTy).Contents (Elt Ideal)) (x11 : (⟨Cert.ReferenceIdeal.S1, .f32⟩ : BufTy).Contents (Elt Ideal)) :
    Cert.ReferenceIdeal.Read.val_main_v72 (F := Ideal) x0 x1 x2 x3 x4 x5 x6 x7 x8 x9 x10 x11 = Cert.Net.result x0 x1 x2 x3 x4 x5 x6 x7 x8 x9 x10 x11 := by
  unfold Cert.ReferenceIdeal.Read.val_main_v72 Cert.Net.result Cert.Net.logits
  rw [Cert.ReferenceIdeal.Layers.layer1_eq x0 x1 x2 x3 x4 x5 x6 x7 x8 x9 x10 x11 (Cert.Net.row64 x6) (Cert.Net.row64_apply x6)
        (Cert.Net.row32 x9) (Cert.Net.row32_apply x9) (Cert.Net.row1 x11) (Cert.Net.row1_apply x11),
      Cert.ReferenceIdeal.Chains.mean64_eq,
      Cert.ReferenceIdeal.Layers.layer0_eq x0 x1 x2 x3 x4 (Cert.Net.row64 x3) (Cert.Net.row64_apply x3),
      Cert.ReferenceIdeal.Chains.mean32_eq]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments both programs end with the logits `Net.result` of those arguments. -/
theorem algebraic : Cert.algebraic_KernelIdeal_ReferenceIdeal := by
  intro m ρ m' ρ' _ hagree
  refine ⟨fun c => Cert.Net.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Fold.result_eq m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v72_eq, ref_result]
    obtain ⟨e0, e1, e2, e3, e4, e5, e6, e7, e8, e9, e10, e11⟩ := hagree c
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
